-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v76)) (v1 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_v72) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_v151) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S2x800000 : S_.BroadcastsInDim S2x800000 (![] : Fin 0 → Fin S2x800000.rank)
  reducesTo_S2x800000_S_d0_1 : S2x800000.ReducesTo [0, 1] S_

variable [Facts]

def fn_part2 {F : FTy → Type} [FloatOps F] (main_arg1 : IVec S2x800000 32) (main_v33 : IVec S_ 1) : IVec S_ 1 :=
  let main_c_12 : IVec S_ 32 := constantI S_ 32 0#32
  let main_v34 : IVec S2x800000 32 := broadcastInDim S2x800000 ![] bcast_S_S2x800000 main_c_12
  let main_v35 : IVec S2x800000 1 := cmpi .sge main_arg1 main_v34
  let main_c_13 : IVec S_ 32 := constantI S_ 32 50000#32
  let main_v36 : IVec S2x800000 32 := broadcastInDim S2x800000 ![] bcast_S_S2x800000 main_c_13
  let main_v37 : IVec S2x800000 1 := cmpi .slt main_arg1 main_v36
  let main_v38 : IVec S2x800000 1 := andi main_v35 main_v37
  let main_c_14 : IVec S_ 1 := constantI S_ 1 1#1
  let main_v39 : IVec S_ 1 := (fun x v => Host.reduce IntOp.andi x v reducesTo_S2x800000_S_d0_1 h_S_) main_v38 main_c_14
  let main_v40 : IVec S_ 1 := andi main_v33 main_v39
  main_v40

def fn_part1 {F : FTy → Type} [FloatOps F] (main_arg1 : IVec S2x800000 32) (main_arg6 : FVec F S128 .f32) (main_arg7 : FVec F S128x1 .f32) (main_arg8 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg7
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg1 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x1 .f32) (main_arg8 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg6 main_arg7 main_arg8 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x1 : Shape := ⟨2, ![1, 1]⟩
abbrev S800000x128 : Shape := ⟨2, ![800000, 128]⟩
abbrev S10000x128 : Shape := ⟨2, ![10000, 128]⟩
abbrev S10000x1 : Shape := ⟨2, ![10000, 1]⟩
abbrev S10000 : Shape := ⟨1, ![10000]⟩
abbrev S50000x1 : Shape := ⟨2, ![50000, 1]⟩
abbrev S1x128 : Shape := ⟨2, ![1, 128]⟩

abbrev nBuf : Space → Nat
  | .hbm => 235
  | .vmem => 18
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x1, .f32⟩
  | 8 => ⟨S1, .f32⟩
  | 9 => ⟨S1x800000, .i32⟩
  | 10 => ⟨S800000, .i32⟩
  | 11 => ⟨S1x800000, .i32⟩
  | 12 => ⟨S800000, .i32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S1, .i32⟩
  | 22 => ⟨S_, .i32⟩
  | 23 => ⟨S800000x1, .i32⟩
  | 24 => ⟨S800000x1, .i1⟩
  | 25 => ⟨S1x1, .i32⟩
  | 26 => ⟨S800000x1, .i32⟩
  | 27 => ⟨S800000x1, .i1⟩
  | 28 => ⟨S800000x1, .i1⟩
  | 29 => ⟨S_, .i1⟩
  | 30 => ⟨S800000, .i1⟩
  | 31 => ⟨S800000, .i32⟩
  | 32 => ⟨S_, .i32⟩
  | 33 => ⟨S800000, .i32⟩
  | 34 => ⟨S800000, .i32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S1, .i32⟩
  | 44 => ⟨S_, .i32⟩
  | 45 => ⟨S800000x1, .i32⟩
  | 46 => ⟨S800000x1, .i1⟩
  | 47 => ⟨S1x1, .i32⟩
  | 48 => ⟨S800000x1, .i32⟩
  | 49 => ⟨S800000x1, .i1⟩
  | 50 => ⟨S800000x1, .i1⟩
  | 51 => ⟨S_, .i1⟩
  | 52 => ⟨S800000, .i1⟩
  | 53 => ⟨S800000, .i32⟩
  | 54 => ⟨S_, .i32⟩
  | 55 => ⟨S800000, .i32⟩
  | 56 => ⟨S800000, .i32⟩
  | 57 => ⟨S800000, .i1⟩
  | 58 => ⟨S800000, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S1, .i32⟩
  | 68 => ⟨S_, .i32⟩
  | 69 => ⟨S800000x1, .i32⟩
  | 70 => ⟨S800000x1, .i1⟩
  | 71 => ⟨S1x1, .i32⟩
  | 72 => ⟨S800000x1, .i32⟩
  | 73 => ⟨S800000x1, .i1⟩
  | 74 => ⟨S800000x1, .i1⟩
  | 75 => ⟨S_, .i1⟩
  | 76 => ⟨S800000, .i1⟩
  | 77 => ⟨S800000x128, .f32⟩
  | 78 => ⟨S800000x128, .i1⟩
  | 79 => ⟨S_, .f32⟩
  | 80 => ⟨S800000x128, .f32⟩
  | 81 => ⟨S800000x128, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S1, .i32⟩
  | 91 => ⟨S_, .i32⟩
  | 92 => ⟨S800000x1, .i32⟩
  | 93 => ⟨S800000x1, .i1⟩
  | 94 => ⟨S1x1, .i32⟩
  | 95 => ⟨S800000x1, .i32⟩
  | 96 => ⟨S800000x1, .i1⟩
  | 97 => ⟨S800000x1, .i1⟩
  | 98 => ⟨S_, .i1⟩
  | 99 => ⟨S800000, .i1⟩
  | 100 => ⟨S800000x128, .f32⟩
  | 101 => ⟨S800000x128, .i1⟩
  | 102 => ⟨S_, .f32⟩
  | 103 => ⟨S800000x128, .f32⟩
  | 104 => ⟨S800000x128, .f32⟩
  | 105 => ⟨S800000x1, .f32⟩
  | 106 => ⟨S800000, .f32⟩
  | 107 => ⟨S_, .f32⟩
  | 108 => ⟨S800000, .f32⟩
  | 109 => ⟨S800000, .f32⟩
  | 110 => ⟨S800000, .f32⟩
  | 111 => ⟨S800000, .f32⟩
  | 112 => ⟨S_, .f32⟩
  | 113 => ⟨S800000, .f32⟩
  | 114 => ⟨S800000, .f32⟩
  | 115 => ⟨S_, .f32⟩
  | 116 => ⟨S50000, .f32⟩
  | 117 => ⟨S800000x1, .i32⟩
  | 118 => ⟨S50000, .f32⟩
  | 119 => ⟨S_, .f32⟩
  | 120 => ⟨S50000, .f32⟩
  | 121 => ⟨S50000, .f32⟩
  | 122 => ⟨S_, .f32⟩
  | 123 => ⟨S50000, .f32⟩
  | 124 => ⟨S50000, .i1⟩
  | 125 => ⟨S_, .f32⟩
  | 126 => ⟨S50000, .f32⟩
  | 127 => ⟨S50000, .f32⟩
  | _ => ⟨S50000x128, .f32⟩

abbrev hbmTy0_1 (i : Nat) : BufTy := match i % 128 with
  | 0 => ⟨S_, .f32⟩
  | 1 => ⟨S_, .f32⟩
  | 2 => ⟨S50000, .f32⟩
  | 3 => ⟨S50000, .f32⟩
  | 4 => ⟨S_, .i32⟩
  | 5 => ⟨S800000, .i32⟩
  | 6 => ⟨S800000, .i1⟩
  | 7 => ⟨S_, .i32⟩
  | 8 => ⟨S800000, .i32⟩
  | 9 => ⟨S800000, .i32⟩
  | 10 => ⟨S800000, .i32⟩
  | 11 => ⟨S800000x1, .i32⟩
  | 12 => ⟨S800000, .f32⟩
  | 13 => ⟨S800000, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000, .f32⟩
  | 23 => ⟨S800000, .f32⟩
  | 24 => ⟨S800000x1, .f32⟩
  | 25 => ⟨S50000, .f32⟩
  | 26 => ⟨S50000x1, .f32⟩
  | 27 => ⟨S50000x128, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S1, .i32⟩
  | 37 => ⟨S_, .i32⟩
  | 38 => ⟨S800000x1, .i32⟩
  | 39 => ⟨S800000x1, .i1⟩
  | 40 => ⟨S1x1, .i32⟩
  | 41 => ⟨S800000x1, .i32⟩
  | 42 => ⟨S800000x1, .i1⟩
  | 43 => ⟨S800000x1, .i1⟩
  | 44 => ⟨S_, .i1⟩
  | 45 => ⟨S800000, .i1⟩
  | 46 => ⟨S800000x128, .f32⟩
  | 47 => ⟨S800000x128, .i1⟩
  | 48 => ⟨S_, .f32⟩
  | 49 => ⟨S800000x128, .f32⟩
  | 50 => ⟨S800000x128, .f32⟩
  | 51 => ⟨S800000x128, .f32⟩
  | 52 => ⟨S_, .f32⟩
  | 53 => ⟨S50000x128, .f32⟩
  | 54 => ⟨S800000x1, .i32⟩
  | 55 => ⟨S50000x128, .f32⟩
  | 56 => ⟨S50000x128, .f32⟩
  | 57 => ⟨S50000x128, .f32⟩
  | 58 => ⟨S50000x128, .f32⟩
  | 59 => ⟨S1x128, .f32⟩
  | 60 => ⟨S50000x128, .f32⟩
  | 61 => ⟨S50000x128, .f32⟩
  | 62 => ⟨S_, .f32⟩
  | 63 => ⟨S50000x128, .f32⟩
  | 64 => ⟨S50000x128, .f32⟩
  | 65 => ⟨S50000x128, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S1, .i32⟩
  | 75 => ⟨S_, .i32⟩
  | 76 => ⟨S800000x1, .i32⟩
  | 77 => ⟨S800000x1, .i1⟩
  | 78 => ⟨S1x1, .i32⟩
  | 79 => ⟨S800000x1, .i32⟩
  | 80 => ⟨S800000x1, .i1⟩
  | 81 => ⟨S800000x1, .i1⟩
  | 82 => ⟨S_, .i1⟩
  | 83 => ⟨S800000, .i1⟩
  | 84 => ⟨S800000x128, .f32⟩
  | 85 => ⟨S800000x128, .i1⟩
  | 86 => ⟨S_, .f32⟩
  | 87 => ⟨S800000x128, .f32⟩
  | 88 => ⟨S800000x128, .f32⟩
  | 89 => ⟨S800000x128, .f32⟩
  | 90 => ⟨S_, .f32⟩
  | 91 => ⟨S50000x128, .f32⟩
  | 92 => ⟨S800000x1, .i32⟩
  | 93 => ⟨S50000x128, .f32⟩
  | 94 => ⟨S50000x128, .f32⟩
  | 95 => ⟨S50000x128, .f32⟩
  | 96 => ⟨S50000x128, .f32⟩
  | 97 => ⟨S1x128, .f32⟩
  | 98 => ⟨S50000x128, .f32⟩
  | 99 => ⟨S50000x128, .f32⟩
  | 100 => ⟨S_, .f32⟩
  | 101 => ⟨S50000x128, .f32⟩
  | 102 => ⟨S50000x128, .f32⟩
  | 103 => ⟨S50000x1, .f32⟩
  | 104 => ⟨S1x1, .f32⟩
  | 105 => ⟨S50000x1, .f32⟩
  | 106 => ⟨S50000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10000x1, .f32⟩
  | .local _ .vmem, ⟨5, _⟩ => ⟨S10000x1, .f32⟩
  | .local _ .vmem, ⟨6, _⟩ => ⟨S10000x128, .f32⟩
  | .local _ .vmem, ⟨7, _⟩ => ⟨S10000x128, .f32⟩
  | .local _ .vmem, ⟨8, _⟩ => ⟨S10000x1, .f32⟩
  | .local _ .vmem, ⟨9, _⟩ => ⟨S10000x1, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S10000x1, .f32⟩
  | .local _ .vmem, ⟨15, _⟩ => ⟨S10000x1, .f32⟩
  | .local _ .vmem, ⟨16, _⟩ => ⟨S10000x128, .f32⟩
  | .local _ .vmem, ⟨17, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_c_4 : Ref sig .tc := ⟨.hbm, 32, rfl⟩
abbrev main_call0_v14 : Ref sig .tc := ⟨.hbm, 33, rfl⟩
abbrev main_v4 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_c_4 : Ref sig .tc := ⟨.hbm, 54, rfl⟩
abbrev main_call1_v14 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_call2_c : Ref sig .tc := ⟨.hbm, 59, rfl⟩
abbrev main_call2_v0 : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_c_1 : Ref sig .tc := ⟨.hbm, 67, rfl⟩
abbrev main_call2_c_2 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_3 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_call2_cst : Ref sig .tc := ⟨.hbm, 79, rfl⟩
abbrev main_call2_v15 : Ref sig .tc := ⟨.hbm, 80, rfl⟩
abbrev main_v8 : Ref sig .tc := ⟨.hbm, 81, rfl⟩
abbrev main_call3_c : Ref sig .tc := ⟨.hbm, 82, rfl⟩
abbrev main_call3_v0 : Ref sig .tc := ⟨.hbm, 83, rfl⟩
abbrev main_call3_v1 : Ref sig .tc := ⟨.hbm, 84, rfl⟩
abbrev main_call3_c_0 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_call3_v5 : Ref sig .tc := ⟨.hbm, 89, rfl⟩
abbrev main_call3_c_1 : Ref sig .tc := ⟨.hbm, 90, rfl⟩
abbrev main_call3_c_2 : Ref sig .tc := ⟨.hbm, 91, rfl⟩
abbrev main_call3_v6 : Ref sig .tc := ⟨.hbm, 92, rfl⟩
abbrev main_call3_v7 : Ref sig .tc := ⟨.hbm, 93, rfl⟩
abbrev main_call3_v8 : Ref sig .tc := ⟨.hbm, 94, rfl⟩
abbrev main_call3_v9 : Ref sig .tc := ⟨.hbm, 95, rfl⟩
abbrev main_call3_v10 : Ref sig .tc := ⟨.hbm, 96, rfl⟩
abbrev main_call3_v11 : Ref sig .tc := ⟨.hbm, 97, rfl⟩
abbrev main_call3_c_3 : Ref sig .tc := ⟨.hbm, 98, rfl⟩
abbrev main_call3_v12 : Ref sig .tc := ⟨.hbm, 99, rfl⟩
abbrev main_call3_v13 : Ref sig .tc := ⟨.hbm, 100, rfl⟩
abbrev main_call3_v14 : Ref sig .tc := ⟨.hbm, 101, rfl⟩
abbrev main_call3_cst : Ref sig .tc := ⟨.hbm, 102, rfl⟩
abbrev main_call3_v15 : Ref sig .tc := ⟨.hbm, 103, rfl⟩
abbrev main_v9 : Ref sig .tc := ⟨.hbm, 104, rfl⟩
abbrev main_v10 : Ref sig .tc := ⟨.hbm, 105, rfl⟩
abbrev main_v11 : Ref sig .tc := ⟨.hbm, 106, rfl⟩
abbrev main_cst : Ref sig .tc := ⟨.hbm, 107, rfl⟩
abbrev main_v12 : Ref sig .tc := ⟨.hbm, 108, rfl⟩
abbrev main_v13 : Ref sig .tc := ⟨.hbm, 109, rfl⟩
abbrev main_v14 : Ref sig .tc := ⟨.hbm, 110, rfl⟩
abbrev main_v15 : Ref sig .tc := ⟨.hbm, 111, rfl⟩
abbrev main_cst_0 : Ref sig .tc := ⟨.hbm, 112, rfl⟩
abbrev main_v16 : Ref sig .tc := ⟨.hbm, 113, rfl⟩
abbrev main_v17 : Ref sig .tc := ⟨.hbm, 114, rfl⟩
abbrev main_cst_1 : Ref sig .tc := ⟨.hbm, 115, rfl⟩
abbrev main_v18 : Ref sig .tc := ⟨.hbm, 116, rfl⟩
abbrev main_v19 : Ref sig .tc := ⟨.hbm, 117, rfl⟩
abbrev main_v20 : Ref sig .tc := ⟨.hbm, 118, rfl⟩
abbrev main_cst_2 : Ref sig .tc := ⟨.hbm, 119, rfl⟩
abbrev main_v21 : Ref sig .tc := ⟨.hbm, 120, rfl⟩
abbrev main_v22 : Ref sig .tc := ⟨.hbm, 121, rfl⟩
abbrev main_cst_3 : Ref sig .tc := ⟨.hbm, 122, rfl⟩
abbrev main_v23 : Ref sig .tc := ⟨.hbm, 123, rfl⟩
abbrev main_v24 : Ref sig .tc := ⟨.hbm, 124, rfl⟩
abbrev main_cst_4 : Ref sig .tc := ⟨.hbm, 125, rfl⟩
abbrev main_v25 : Ref sig .tc := ⟨.hbm, 126, rfl⟩
abbrev main_v26 : Ref sig .tc := ⟨.hbm, 127, rfl⟩
abbrev main_cst_5 : Ref sig .tc := ⟨.hbm, 128, rfl⟩
abbrev main_call4_v0 : Ref sig .tc := ⟨.hbm, 129, rfl⟩
abbrev main_call4_v1 : Ref sig .tc := ⟨.hbm, 130, rfl⟩
abbrev main_v27 : Ref sig .tc := ⟨.hbm, 131, rfl⟩
abbrev main_c : Ref sig .tc := ⟨.hbm, 132, rfl⟩
abbrev main_v28 : Ref sig .tc := ⟨.hbm, 133, rfl⟩
abbrev main_v29 : Ref sig .tc := ⟨.hbm, 134, rfl⟩
abbrev main_c_6 : Ref sig .tc := ⟨.hbm, 135, rfl⟩
abbrev main_v30 : Ref sig .tc := ⟨.hbm, 136, rfl⟩
abbrev main_v31 : Ref sig .tc := ⟨.hbm, 137, rfl⟩
abbrev main_v32 : Ref sig .tc := ⟨.hbm, 138, rfl⟩
abbrev main_v33 : Ref sig .tc := ⟨.hbm, 139, rfl⟩
abbrev main_v34 : Ref sig .tc := ⟨.hbm, 140, rfl⟩
abbrev main_v35 : Ref sig .tc := ⟨.hbm, 141, rfl⟩
abbrev main_c_7 : Ref sig .tc := ⟨.hbm, 142, rfl⟩
abbrev main_v36 : Ref sig .tc := ⟨.hbm, 143, rfl⟩
abbrev main_v37 : Ref sig .tc := ⟨.hbm, 144, rfl⟩
abbrev main_c_8 : Ref sig .tc := ⟨.hbm, 145, rfl⟩
abbrev main_v38 : Ref sig .tc := ⟨.hbm, 146, rfl⟩
abbrev main_v39 : Ref sig .tc := ⟨.hbm, 147, rfl⟩
abbrev main_v40 : Ref sig .tc := ⟨.hbm, 148, rfl⟩
abbrev main_v41 : Ref sig .tc := ⟨.hbm, 149, rfl⟩
abbrev main_v42 : Ref sig .tc := ⟨.hbm, 150, rfl⟩
abbrev main_v43 : Ref sig .tc := ⟨.hbm, 151, rfl⟩
abbrev main_v44 : Ref sig .tc := ⟨.hbm, 152, rfl⟩
abbrev main_v45 : Ref sig .tc := ⟨.hbm, 153, rfl⟩
abbrev main_v46 : Ref sig .tc := ⟨.hbm, 154, rfl⟩
abbrev main_v47 : Ref sig .tc := ⟨.hbm, 155, rfl⟩
abbrev main_call5_c : Ref sig .tc := ⟨.hbm, 156, rfl⟩
abbrev main_call5_v0 : Ref sig .tc := ⟨.hbm, 157, rfl⟩
abbrev main_call5_v1 : Ref sig .tc := ⟨.hbm, 158, rfl⟩
abbrev main_call5_c_0 : Ref sig .tc := ⟨.hbm, 159, rfl⟩
abbrev main_call5_v2 : Ref sig .tc := ⟨.hbm, 160, rfl⟩
abbrev main_call5_v3 : Ref sig .tc := ⟨.hbm, 161, rfl⟩
abbrev main_call5_v4 : Ref sig .tc := ⟨.hbm, 162, rfl⟩
abbrev main_call5_v5 : Ref sig .tc := ⟨.hbm, 163, rfl⟩
abbrev main_call5_c_1 : Ref sig .tc := ⟨.hbm, 164, rfl⟩
abbrev main_call5_c_2 : Ref sig .tc := ⟨.hbm, 165, rfl⟩
abbrev main_call5_v6 : Ref sig .tc := ⟨.hbm, 166, rfl⟩
abbrev main_call5_v7 : Ref sig .tc := ⟨.hbm, 167, rfl⟩
abbrev main_call5_v8 : Ref sig .tc := ⟨.hbm, 168, rfl⟩
abbrev main_call5_v9 : Ref sig .tc := ⟨.hbm, 169, rfl⟩
abbrev main_call5_v10 : Ref sig .tc := ⟨.hbm, 170, rfl⟩
abbrev main_call5_v11 : Ref sig .tc := ⟨.hbm, 171, rfl⟩
abbrev main_call5_c_3 : Ref sig .tc := ⟨.hbm, 172, rfl⟩
abbrev main_call5_v12 : Ref sig .tc := ⟨.hbm, 173, rfl⟩
abbrev main_call5_v13 : Ref sig .tc := ⟨.hbm, 174, rfl⟩
abbrev main_call5_v14 : Ref sig .tc := ⟨.hbm, 175, rfl⟩
abbrev main_call5_cst : Ref sig .tc := ⟨.hbm, 176, rfl⟩
abbrev main_call5_v15 : Ref sig .tc := ⟨.hbm, 177, rfl⟩
abbrev main_v48 : Ref sig .tc := ⟨.hbm, 178, rfl⟩
abbrev main_v49 : Ref sig .tc := ⟨.hbm, 179, rfl⟩
abbrev main_cst_9 : Ref sig .tc := ⟨.hbm, 180, rfl⟩
abbrev main_v50 : Ref sig .tc := ⟨.hbm, 181, rfl⟩
abbrev main_v51 : Ref sig .tc := ⟨.hbm, 182, rfl⟩
abbrev main_v52 : Ref sig .tc := ⟨.hbm, 183, rfl⟩
abbrev main_v53 : Ref sig .tc := ⟨.hbm, 184, rfl⟩
abbrev main_v54 : Ref sig .tc := ⟨.hbm, 185, rfl⟩
abbrev main_v55 : Ref sig .tc := ⟨.hbm, 186, rfl⟩
abbrev main_v56 : Ref sig .tc := ⟨.hbm, 187, rfl⟩
abbrev main_v57 : Ref sig .tc := ⟨.hbm, 188, rfl⟩
abbrev main_v58 : Ref sig .tc := ⟨.hbm, 189, rfl⟩
abbrev main_call6_cst : Ref sig .tc := ⟨.hbm, 190, rfl⟩
abbrev main_call6_v0 : Ref sig .tc := ⟨.hbm, 191, rfl⟩
abbrev main_v59 : Ref sig .tc := ⟨.hbm, 192, rfl⟩
abbrev main_v60 : Ref sig .tc := ⟨.hbm, 193, rfl⟩
abbrev main_call7_c : Ref sig .tc := ⟨.hbm, 194, rfl⟩
abbrev main_call7_v0 : Ref sig .tc := ⟨.hbm, 195, rfl⟩
abbrev main_call7_v1 : Ref sig .tc := ⟨.hbm, 196, rfl⟩
abbrev main_call7_c_0 : Ref sig .tc := ⟨.hbm, 197, rfl⟩
abbrev main_call7_v2 : Ref sig .tc := ⟨.hbm, 198, rfl⟩
abbrev main_call7_v3 : Ref sig .tc := ⟨.hbm, 199, rfl⟩
abbrev main_call7_v4 : Ref sig .tc := ⟨.hbm, 200, rfl⟩
abbrev main_call7_v5 : Ref sig .tc := ⟨.hbm, 201, rfl⟩
abbrev main_call7_c_1 : Ref sig .tc := ⟨.hbm, 202, rfl⟩
abbrev main_call7_c_2 : Ref sig .tc := ⟨.hbm, 203, rfl⟩
abbrev main_call7_v6 : Ref sig .tc := ⟨.hbm, 204, rfl⟩
abbrev main_call7_v7 : Ref sig .tc := ⟨.hbm, 205, rfl⟩
abbrev main_call7_v8 : Ref sig .tc := ⟨.hbm, 206, rfl⟩
abbrev main_call7_v9 : Ref sig .tc := ⟨.hbm, 207, rfl⟩
abbrev main_call7_v10 : Ref sig .tc := ⟨.hbm, 208, rfl⟩
abbrev main_call7_v11 : Ref sig .tc := ⟨.hbm, 209, rfl⟩
abbrev main_call7_c_3 : Ref sig .tc := ⟨.hbm, 210, rfl⟩
abbrev main_call7_v12 : Ref sig .tc := ⟨.hbm, 211, rfl⟩
abbrev main_call7_v13 : Ref sig .tc := ⟨.hbm, 212, rfl⟩
abbrev main_call7_v14 : Ref sig .tc := ⟨.hbm, 213, rfl⟩
abbrev main_call7_cst : Ref sig .tc := ⟨.hbm, 214, rfl⟩
abbrev main_call7_v15 : Ref sig .tc := ⟨.hbm, 215, rfl⟩
abbrev main_v61 : Ref sig .tc := ⟨.hbm, 216, rfl⟩
abbrev main_v62 : Ref sig .tc := ⟨.hbm, 217, rfl⟩
abbrev main_cst_10 : Ref sig .tc := ⟨.hbm, 218, rfl⟩
abbrev main_v63 : Ref sig .tc := ⟨.hbm, 219, rfl⟩
abbrev main_v64 : Ref sig .tc := ⟨.hbm, 220, rfl⟩
abbrev main_v65 : Ref sig .tc := ⟨.hbm, 221, rfl⟩
abbrev main_v66 : Ref sig .tc := ⟨.hbm, 222, rfl⟩
abbrev main_v67 : Ref sig .tc := ⟨.hbm, 223, rfl⟩
abbrev main_v68 : Ref sig .tc := ⟨.hbm, 224, rfl⟩
abbrev main_v69 : Ref sig .tc := ⟨.hbm, 225, rfl⟩
abbrev main_v70 : Ref sig .tc := ⟨.hbm, 226, rfl⟩
abbrev main_v71 : Ref sig .tc := ⟨.hbm, 227, rfl⟩
abbrev main_call8_cst : Ref sig .tc := ⟨.hbm, 228, rfl⟩
abbrev main_call8_v0 : Ref sig .tc := ⟨.hbm, 229, rfl⟩
abbrev main_v72 : Ref sig .tc := ⟨.hbm, 230, rfl⟩
abbrev main_v73 : Ref sig .tc := ⟨.hbm, 231, rfl⟩
abbrev main_v74 : Ref sig .tc := ⟨.hbm, 232, rfl⟩
abbrev main_v75 : Ref sig .tc := ⟨.hbm, 233, rfl⟩
abbrev main_v76 : Ref sig .tc := ⟨.hbm, 234, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  reduces_S10000x128_S10000 : S10000x128.Reduces [1] S10000
  shapeCasts_S10000_S10000x1 : S10000.ShapeCasts S10000x1
  inb_S10000x1_S10000x1_0_0 : ∀ a, (![0, 0] : Fin 2 → Nat) a + S10000x1.size a ≤ S10000x1.size a
  h_S10000x1 : 0 < S10000x1.numel
  shapeCasts_S800000x1_S800000 : S800000x1.ShapeCasts S800000
  bcast_S_S50000 : S_.BroadcastsInDim S50000 (![] : Fin 0 → Fin S50000.rank)
  shapeCasts_S800000_S800000x1 : S800000.ShapeCasts S800000x1
  bcast_S50000_S50000x1_0 : S50000.BroadcastsInDim S50000x1 (![0] : Fin 1 → Fin S50000x1.rank)
  shapeCasts_S10000x1_S10000x1 : S10000x1.ShapeCasts S10000x1
  broadcasts_S10000x1_S10000x128 : S10000x1.Broadcasts S10000x128
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x1_S50000x1_0_1 : S1x1.BroadcastsInDim S50000x1 (![0, 1] : Fin 2 → Fin S50000x1.rank)
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  scatter_S50000x128_S800000x1_S800000x128_1_0_0_1_wf : ScatterDims.WF S50000x128 S800000x1 S800000x128 [1] [0] [0] 1
  dot_S50000x128_S128x1_S50000x1_1_0_0_1_n_n_wf : DotDims.WF S50000x128 S128x1 S50000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S800000x128.size a
  hwx0_0 : ∀ i : grid0.Coords, EltTy.bits .f32 = 32 ∨ (Rect.block (s := S800000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S800000x128.size a
  hwx0_1 : ∀ i : grid0.Coords, EltTy.bits .f32 = 32 ∨ (Rect.block (s := S800000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S800000x1.size a
  hwx0_2 : ∀ i : grid0.Coords, EltTy.bits .f32 = 32 ∨ (Rect.block (s := S800000x1) S10000x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S800000x128.size a
  hwx1_0 : ∀ i : grid1.Coords, EltTy.bits .f32 = 32 ∨ (Rect.block (s := S800000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S800000x1.size a
  hwx1_1 : ∀ i : grid1.Coords, EltTy.bits .f32 = 32 ∨ (Rect.block (s := S800000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S800000x128.size a
  hwx1_2 : ∀ i : grid1.Coords, EltTy.bits .f32 = 32 ∨ (Rect.block (s := S800000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S800000x128.size a
  hwx2_0 : ∀ i : grid2.Coords, EltTy.bits .f32 = 32 ∨ (Rect.block (s := S800000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S800000x1.size a
  hwx2_1 : ∀ i : grid2.Coords, EltTy.bits .f32 = 32 ∨ (Rect.block (s := S800000x1) S10000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S800000x128.size a
  hwx2_2 : ∀ i : grid2.Coords, EltTy.bits .f32 = 32 ∨ (Rect.block (s := S800000x128) S10000x128.size (cc2_transform_2 i) (hinb2_2 i)).WholeWords (EltTy.packing .f32)

variable [Facts₀]

def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

abbrev win0_0 : Pipeline.Window sig grid0 :=
  Pipeline.Window.ofSpec (Memref.whole main_v8) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S10000x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v61) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v62) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S1x1 : Shape := ⟨2, ![1, 1]⟩

abbrev nBuf : Space → Nat
  | .hbm => 212
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x1, .f32⟩
  | 8 => ⟨S1, .f32⟩
  | 9 => ⟨S1x800000, .i32⟩
  | 10 => ⟨S800000, .i32⟩
  | 11 => ⟨S1x800000, .i32⟩
  | 12 => ⟨S800000, .i32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x128, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x128, .f32⟩
  | 31 => ⟨S800000x128, .f32⟩
  | 32 => ⟨S_, .f32⟩
  | 33 => ⟨S800000, .f32⟩
  | 34 => ⟨S800000x128, .f32⟩
  | 35 => ⟨S_, .f32⟩
  | 36 => ⟨S800000, .f32⟩
  | 37 => ⟨S800000, .f32⟩
  | 38 => ⟨S_, .f32⟩
  | 39 => ⟨S800000, .f32⟩
  | 40 => ⟨S800000, .f32⟩
  | 41 => ⟨S800000x128, .f32⟩
  | 42 => ⟨S_, .f32⟩
  | 43 => ⟨S800000, .f32⟩
  | 44 => ⟨S800000, .f32⟩
  | 45 => ⟨S_, .f32⟩
  | 46 => ⟨S800000, .f32⟩
  | 47 => ⟨S800000, .f32⟩
  | 48 => ⟨S800000, .f32⟩
  | 49 => ⟨S800000, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000, .i32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000, .i32⟩
  | 68 => ⟨S800000, .i1⟩
  | 69 => ⟨S800000, .f32⟩
  | 70 => ⟨S_, .f32⟩
  | 71 => ⟨S800000, .f32⟩
  | 72 => ⟨S800000, .f32⟩
  | 73 => ⟨S800000, .f32⟩
  | 74 => ⟨S800000, .f32⟩
  | 75 => ⟨S_, .f32⟩
  | 76 => ⟨S800000, .f32⟩
  | 77 => ⟨S800000, .f32⟩
  | 78 => ⟨S50000x128, .f32⟩
  | 79 => ⟨S_, .f32⟩
  | 80 => ⟨S50000, .f32⟩
  | 81 => ⟨S800000x1, .i32⟩
  | 82 => ⟨S50000, .f32⟩
  | 83 => ⟨S_, .f32⟩
  | 84 => ⟨S50000, .f32⟩
  | 85 => ⟨S50000, .f32⟩
  | 86 => ⟨S_, .f32⟩
  | 87 => ⟨S50000, .f32⟩
  | 88 => ⟨S50000, .i1⟩
  | 89 => ⟨S_, .f32⟩
  | 90 => ⟨S50000, .f32⟩
  | 91 => ⟨S50000, .f32⟩
  | 92 => ⟨S_, .f32⟩
  | 93 => ⟨S_, .f32⟩
  | 94 => ⟨S50000, .f32⟩
  | 95 => ⟨S50000, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000, .f32⟩
  | 105 => ⟨S800000, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000, .f32⟩
  | 115 => ⟨S800000, .f32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S800000x128, .f32⟩
  | 125 => ⟨S800000x1, .f32⟩
  | 126 => ⟨S800000x128, .f32⟩
  | 127 => ⟨S800000x128, .f32⟩
  | _ => ⟨S50000x128, .f32⟩

abbrev hbmTy0_1 (i : Nat) : BufTy := match i % 128 with
  | 0 => ⟨S_, .f32⟩
  | 1 => ⟨S50000x128, .f32⟩
  | 2 => ⟨S800000x1, .i32⟩
  | 3 => ⟨S50000x128, .f32⟩
  | 4 => ⟨S50000, .f32⟩
  | 5 => ⟨S50000x1, .f32⟩
  | 6 => ⟨S50000x128, .f32⟩
  | 7 => ⟨S50000x128, .f32⟩
  | 8 => ⟨S50000x128, .f32⟩
  | 9 => ⟨S1x128, .f32⟩
  | 10 => ⟨S50000x128, .f32⟩
  | 11 => ⟨S50000x128, .f32⟩
  | 12 => ⟨S_, .f32⟩
  | 13 => ⟨S50000x128, .f32⟩
  | 14 => ⟨S50000x128, .f32⟩
  | 15 => ⟨S50000x128, .f32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .f32⟩
  | 23 => ⟨S_, .f32⟩
  | 24 => ⟨S50000, .f32⟩
  | 25 => ⟨S50000, .i1⟩
  | 26 => ⟨S_, .f32⟩
  | 27 => ⟨S50000, .f32⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000, .f32⟩
  | 42 => ⟨S800000, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000, .f32⟩
  | 52 => ⟨S800000, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x128, .f32⟩
  | 62 => ⟨S800000x1, .f32⟩
  | 63 => ⟨S800000x128, .f32⟩
  | 64 => ⟨S800000x128, .f32⟩
  | 65 => ⟨S_, .f32⟩
  | 66 => ⟨S50000x128, .f32⟩
  | 67 => ⟨S800000x1, .i32⟩
  | 68 => ⟨S50000x128, .f32⟩
  | 69 => ⟨S50000, .f32⟩
  | 70 => ⟨S50000x1, .f32⟩
  | 71 => ⟨S50000x128, .f32⟩
  | 72 => ⟨S50000x128, .f32⟩
  | 73 => ⟨S50000x128, .f32⟩
  | 74 => ⟨S1x128, .f32⟩
  | 75 => ⟨S50000x128, .f32⟩
  | 76 => ⟨S50000x128, .f32⟩
  | 77 => ⟨S_, .f32⟩
  | 78 => ⟨S50000x128, .f32⟩
  | 79 => ⟨S50000x128, .f32⟩
  | 80 => ⟨S50000x1, .f32⟩
  | 81 => ⟨S1x1, .f32⟩
  | 82 => ⟨S50000x1, .f32⟩
  | 83 => ⟨S50000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_c_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_9 : Ref sig .tc := ⟨.hbm, 59, rfl⟩
abbrev main_v39 : Ref sig .tc := ⟨.hbm, 60, rfl⟩
abbrev main_v40 : Ref sig .tc := ⟨.hbm, 61, rfl⟩
abbrev main_c_10 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_11 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_12 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_13 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_14 : Ref sig .tc := ⟨.hbm, 83, rfl⟩
abbrev main_v58 : Ref sig .tc := ⟨.hbm, 84, rfl⟩
abbrev main_v59 : Ref sig .tc := ⟨.hbm, 85, rfl⟩
abbrev main_cst_15 : Ref sig .tc := ⟨.hbm, 86, rfl⟩
abbrev main_v60 : Ref sig .tc := ⟨.hbm, 87, rfl⟩
abbrev main_v61 : Ref sig .tc := ⟨.hbm, 88, rfl⟩
abbrev main_cst_16 : Ref sig .tc := ⟨.hbm, 89, rfl⟩
abbrev main_v62 : Ref sig .tc := ⟨.hbm, 90, rfl⟩
abbrev main_v63 : Ref sig .tc := ⟨.hbm, 91, rfl⟩
abbrev main_cst_17 : Ref sig .tc := ⟨.hbm, 92, rfl⟩
abbrev main_call0_v0 : Ref sig .tc := ⟨.hbm, 93, rfl⟩
abbrev main_call0_v1 : Ref sig .tc := ⟨.hbm, 94, rfl⟩
abbrev main_v64 : Ref sig .tc := ⟨.hbm, 95, rfl⟩
abbrev main_c_18 : Ref sig .tc := ⟨.hbm, 96, rfl⟩
abbrev main_v65 : Ref sig .tc := ⟨.hbm, 97, rfl⟩
abbrev main_v66 : Ref sig .tc := ⟨.hbm, 98, rfl⟩
abbrev main_c_19 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_c_20 : Ref sig .tc := ⟨.hbm, 106, rfl⟩
abbrev main_v73 : Ref sig .tc := ⟨.hbm, 107, rfl⟩
abbrev main_v74 : Ref sig .tc := ⟨.hbm, 108, rfl⟩
abbrev main_c_21 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_c_22 : Ref sig .tc := ⟨.hbm, 116, rfl⟩
abbrev main_v81 : Ref sig .tc := ⟨.hbm, 117, rfl⟩
abbrev main_v82 : Ref sig .tc := ⟨.hbm, 118, rfl⟩
abbrev main_c_23 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_24 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_call1_cst : Ref sig .tc := ⟨.hbm, 140, rfl⟩
abbrev main_call1_v0 : Ref sig .tc := ⟨.hbm, 141, rfl⟩
abbrev main_v102 : Ref sig .tc := ⟨.hbm, 142, rfl⟩
abbrev main_v103 : Ref sig .tc := ⟨.hbm, 143, rfl⟩
abbrev main_cst_25 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_cst_26 : Ref sig .tc := ⟨.hbm, 148, rfl⟩
abbrev main_v107 : Ref sig .tc := ⟨.hbm, 149, rfl⟩
abbrev main_v108 : Ref sig .tc := ⟨.hbm, 150, rfl⟩
abbrev main_cst_27 : Ref sig .tc := ⟨.hbm, 151, rfl⟩
abbrev main_v109 : Ref sig .tc := ⟨.hbm, 152, rfl⟩
abbrev main_v110 : Ref sig .tc := ⟨.hbm, 153, rfl⟩
abbrev main_cst_28 : Ref sig .tc := ⟨.hbm, 154, rfl⟩
abbrev main_v111 : Ref sig .tc := ⟨.hbm, 155, rfl⟩
abbrev main_v112 : Ref sig .tc := ⟨.hbm, 156, rfl⟩
abbrev main_cst_29 : Ref sig .tc := ⟨.hbm, 157, rfl⟩
abbrev main_call2_v0 : Ref sig .tc := ⟨.hbm, 158, rfl⟩
abbrev main_call2_v1 : Ref sig .tc := ⟨.hbm, 159, rfl⟩
abbrev main_v113 : Ref sig .tc := ⟨.hbm, 160, rfl⟩
abbrev main_c_30 : Ref sig .tc := ⟨.hbm, 161, rfl⟩
abbrev main_v114 : Ref sig .tc := ⟨.hbm, 162, rfl⟩
abbrev main_v115 : Ref sig .tc := ⟨.hbm, 163, rfl⟩
abbrev main_c_31 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_c_32 : Ref sig .tc := ⟨.hbm, 171, rfl⟩
abbrev main_v122 : Ref sig .tc := ⟨.hbm, 172, rfl⟩
abbrev main_v123 : Ref sig .tc := ⟨.hbm, 173, rfl⟩
abbrev main_c_33 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_c_34 : Ref sig .tc := ⟨.hbm, 181, rfl⟩
abbrev main_v130 : Ref sig .tc := ⟨.hbm, 182, rfl⟩
abbrev main_v131 : Ref sig .tc := ⟨.hbm, 183, rfl⟩
abbrev main_c_35 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_cst_36 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_call3_cst : Ref sig .tc := ⟨.hbm, 205, rfl⟩
abbrev main_call3_v0 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x128_S800000_d1 : S800000x128.ReducesTo [1] S800000
  h_S_ : 0 < S_.numel
  bcast_S_S50000 : S_.BroadcastsInDim S50000 (![] : Fin 0 → Fin S50000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  gather_S50000x128_S800000x1_S800000x128_1_0_n_n_0_1_1128_wf : GatherDims.WF S50000x128 S800000x1 S800000x128 [1] [0] [] [0] [] 1 ![1, 128]
  gather_S50000_S800000x1_S800000_n_0_n_n_0_1_1_wf : GatherDims.WF S50000 S800000x1 S800000 [] [0] [] [0] [] 1 ![1]
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  scatter_S50000x128_S800000x1_S800000x128_1_0_0_1_wf : ScatterDims.WF S50000x128 S800000x1 S800000x128 [1] [0] [0] 1
  dot_S50000x128_S128x1_S50000x1_1_0_0_1_n_n_wf : DotDims.WF S50000x128 S128x1 S50000x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.IdxPre.lean ====
/-
  The precondition read back: under it every entry of the edge list is a node number, a signed word in [0, 50000).
-/
import proofs.«408912_j5085241279118_3_alg».proof.Defs
import proofs.«408912_j5085241279118_3_alg».proof.Proof.Gen.Pre_finite_inputs
import proofs.«408912_j5085241279118_3_alg».proof.Proof.Gen.KernelIdeal
import Idealize.ShloMosaic.Lib.ReduceAll
import Idealize.ShloMosaic.Lib.StableHlo.Predicate

set_option maxRecDepth 16384

noncomputable section

namespace Cert.Proof.IdxPre

open Idealize.ShloMosaic Idealize.SL.Sem

/-- A word that is at least 0 and below 50000, both read signed, is below 50000 read as a natural number. -/
theorem toNat_lt_of_cmp (w : BitVec 32) (h0 : IntOp.cmpi .sge w 0#32 = 1#1) (h1 : IntOp.cmpi .slt w 50000#32 = 1#1) :
    w.toNat < 50000 := by
  rw [IntOp.cmpi_sge, show (0#32 : BitVec 32).toInt = 0 from rfl] at h0
  rw [IntOp.cmpi_slt, show (50000#32 : BitVec 32).toInt = 50000 from by decide] at h1
  have hlt : w.toNat < 2 ^ 32 := w.isLt
  have key := BitVec.toInt_eq_toNat_cond w
  by_cases hc : 2 * w.toNat < 2 ^ 32
  · rw [if_pos hc] at key; omega
  · rw [if_neg hc] at key; omega

/-- The rank-0 shape has one index. -/
instance : Subsingleton Cert.Pre_finite_inputs.S_.Idx := ⟨fun a b => funext fun d => d.elim0⟩

/-- Under the precondition, on every device, every entry of the edge list read as a natural number is below 50000. -/
theorem edges_small [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ((m ((c.tc : Thread Cert.KernelIdeal.nD Cert.KernelIdeal.τ).loc Cert.KernelIdeal.main_arg1) : Cert.KernelIdeal.S2x800000.Idx → BitVec 32) i).toNat < 50000 := by
  intro i
  have e := congrFun (h c) (fun d => d.elim0)
  unfold Cert.Pre_finite_inputs.fn Cert.Pre_finite_inputs.fn_part1 Cert.Pre_finite_inputs.fn_part2 at e
  have e2 := (IntOp.andi_eq_one.1 e).2
  have e3 := Host.reduce_andi_all _ _ _ _ _ e2 i
  obtain ⟨h0, h1⟩ := IntOp.andi_eq_one.1 e3
  exact toNat_lt_of_cmp _ h0 h1

end Cert.Proof.IdxPre

end
-- ==== Proof.KTake.lean ====
/-
  Index vectors whose entries all lie in [0, 50000): the negative-index wrap leaves them where they are, the
  in-bounds test of a filled take is true at every entry, and a select under an all-true mask is its first branch.
-/
import proofs.«408912_j5085241279118_3_alg».proof.Proof.Gen.KernelIdeal
import Idealize.ShloMosaic.Lib.ReduceAll
import Idealize.ShloMosaic.Lib.StableHlo.Predicate
import Idealize.ShloMosaic.Lib.ValueIdx

set_option maxRecDepth 16384

noncomputable section

namespace Cert.KernelIdeal.KTake

open Cert.KernelIdeal Cert.KernelIdeal.Gen
open Idealize.ShloMosaic

/-- Every entry, read as a natural number, is below 50000 (so it is a non-negative signed word below 50000). -/
def Small {s : Shape} (v : IVec s 32) : Prop := ∀ i, (v i).toNat < 50000

/-! ### Words below 50000 -/

/-- A word below 50000 reads the same signed and unsigned. -/
theorem toInt_of_small (w : BitVec 32) (h : w.toNat < 50000) : w.toInt = (w.toNat : Int) :=
  StableHlo.Predicate.toInt_eq_toNat_of_lt (by omega)

/-- A word below 50000 is not negative. -/
theorem slt_zero_ne_one (w : BitVec 32) (h : w.toNat < 50000) : ¬ IntOp.cmpi .slt w 0#32 = 1#1 := by
  rw [IntOp.cmpi_slt, toInt_of_small w h, show (0#32 : BitVec 32).toInt = 0 from rfl]
  omega

/-- A word below 50000 is at least zero, signed. -/
theorem sge_zero_eq_one (w : BitVec 32) (h : w.toNat < 50000) : IntOp.cmpi .sge w 0#32 = 1#1 := by
  rw [IntOp.cmpi_sge, toInt_of_small w h, show (0#32 : BitVec 32).toInt = 0 from rfl]
  omega

/-- A word below 50000 is at most 49999, signed. -/
theorem sle_top_eq_one (w : BitVec 32) (h : w.toNat < 50000) : IntOp.cmpi .sle w 49999#32 = 1#1 := by
  rw [IntOp.cmpi_sle, toInt_of_small w h, show (49999#32 : BitVec 32).toInt = 49999 from by decide]
  omega

/-- A left fold of the one-bit and, started at 1 over a list whose images are all 1, is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..), show IntOp.andi 1#1 1#1 = 1#1 from by decide]
    exact foldl_andi_one f l (fun n hn => h n (List.mem_cons_of_mem _ hn))

/-! ### The statements -/

/-- jnp's wrap of negative indices keeps small entries small. -/
theorem small_wrap (idx : IVec S800000 32) (h : Small idx) :
    Small (select (cmpi .slt idx (broadcastInDim S800000 ![] bcast_S_S800000 (constantI S_ 32 0#32)))
      (addi idx (broadcastInDim S800000 ![] bcast_S_S800000 (constantI S_ 32 50000#32))) idx) := by
  intro i
  have hc : ¬ IntOp.cmpi .slt (idx i) 0#32 = (1 : BitVec 1) := slt_zero_ne_one (idx i) (h i)
  show (Scalar.select (IntOp.cmpi .slt (idx i) 0#32) (IntOp.addi (idx i) 50000#32) (idx i)).toNat < 50000
  unfold Scalar.select
  rw [if_neg hc]
  exact h i

/-- An index vector laid out as a one-column table keeps its entries. -/
theorem small_col (idx : IVec S800000 32) (h : Small idx) :
    Small (broadcastInDim S800000x1 ![0] bcast_S800000_S800000x1_0 idx) := by
  intro i
  unfold broadcastInDim
  exact h _

/-- The in-bounds test of a filled take, on start indices that are all small, is true at every entry. -/
theorem mask_one (w5 : IVec S800000x1 32) (h : Small w5) :
    Host.reduce IntOp.andi
        (andi (cmpi .sge w5 (broadcastInDim S800000x1 ![] bcast_S_S800000x1 (constantI S_ 32 0#32)))
          (cmpi .sle w5 (broadcastInDim S800000x1 ![0, 1] bcast_S1x1_S800000x1_0_1
            (broadcastInDim S1x1 ![1] bcast_S1_S1x1_1 (constantI S1 32 49999#32)))))
        (constantI S_ 1 1#1) reducesTo_S800000x1_S800000_d1 h_S_
      = fun _ => 1#1 := by
  funext j
  rw [Host.reduce_eq_foldl]
  refine foldl_andi_one _ _ ?_
  intro n _
  show IntOp.andi (IntOp.cmpi .sge (w5 n) 0#32) (IntOp.cmpi .sle (w5 n) 49999#32) = 1#1
  rw [IntOp.andi_eq_one]
  exact ⟨sge_zero_eq_one _ (h n), sle_top_eq_one _ (h n)⟩

/-- A select under an all-true mask is its first branch. -/
theorem select_one_vec {α : Type} (a b : S800000.Idx → α) :
    select (fun _ => 1#1 : IVec S800000 1) a b = a := by
  funext i
  show (if (1#1 : BitVec 1) = 1 then a i else b i) = a i
  exact if_pos rfl

/-- The same with the mask laid along the rows of an [E, 128] array. -/
theorem select_one_mat {α : Type} (a b : S800000x128.Idx → α) :
    select (broadcastInDim S800000x128 ![0] bcast_S800000_S800000x128_0 (fun _ => 1#1 : IVec S800000 1)) a b = a := by
  funext i
  show (if (1#1 : BitVec 1) = 1 then a i else b i) = a i
  exact if_pos rfl

/-- Row 0 of an edge list whose entries are all small is a small index vector. -/
theorem src_small (ei : IVec S2x800000 32) (h : Small ei) :
    Small (shapeCast S800000 (extractStridedSlice S1x800000 ![0, 0] ei slices_S2x800000_S1x800000_0_0) shapeCasts_S1x800000_S800000) := by
  intro i
  unfold shapeCast extractStridedSlice
  exact h _

/-- Row 1 likewise. -/
theorem dst_small (ei : IVec S2x800000 32) (h : Small ei) :
    Small (shapeCast S800000 (extractStridedSlice S1x800000 ![1, 0] ei slices_S2x800000_S1x800000_1_0) shapeCasts_S1x800000_S800000) := by
  intro i
  unfold shapeCast extractStridedSlice
  exact h _

end Cert.KernelIdeal.KTake

end
-- ==== Proof.LibTRefCast.lean ====
/-
  Typed references of a called function's values: a value written through a typed reference and read back through
  the same reference is the value, whatever proofs the two spellings of the reference carry.
-/
import Idealize.ShloMosaic.Lib.StableHlo

namespace Cert.Lib

open Idealize.ShloMosaic Idealize.ShloMosaic.StableHlo

/-- Contents stored at the value's type as contents of the buffer and read back at the value's type are unchanged:
    the two transports along the reference's type equation cancel. -/
theorem ofBuf_toBuf {sig : RefSig} {Val : EltTy → Type} {T : BufTy} (x : TRef sig T) (v : T.Contents Val) :
    x.ofBuf (x.toBuf v) = v := by
  obtain ⟨r, h, a, b⟩ := x
  subst h
  rfl

end Cert.Lib
-- ==== Proof.KStage0.lean ====
/-
  The host operations of the kernel's program before its first launch (the two rows of the edge list, the sensitive attribute and the features taken at both ends of every edge): under the index range each filled take is the plain gather, so every buffer the later segments read holds the reference's stage of the same arguments.
-/
import proofs.«408912_j5085241279118_3_alg».proof.Proof.Gen.KernelIdeal.Launch
import proofs.«408912_j5085241279118_3_alg».proof.Proof.Gen.ReferenceIdeal.Read
import proofs.«408912_j5085241279118_3_alg».proof.Proof.KTake
import proofs.«408912_j5085241279118_3_alg».proof.Proof.LibTRefCast
import Idealize.ShloMosaic.Lib.StableHlo.Run

set_option maxRecDepth 16384

noncomputable section

namespace Cert.KernelIdeal.KSt0

open Cert.KernelIdeal Cert.KernelIdeal.Gen Cert.KernelIdeal.KTake
open Cert.ReferenceIdeal.Read
open Idealize.ShloMosaic Idealize.ShloMosaic.TcCoe Idealize.SL.Sem Idealize.ShloMosaic.StableHlo

variable {F : FTy → Type} [FloatOps F]
/-- The contents after the six stretches of host operations before the first launch. -/
abbrev run0 (V : Valuation τ sig (Elt F)) : Valuation τ sig (Elt F) :=
  StableHlo.after (hostOps0_5 (F := F)) (StableHlo.after (hostOps0_4 (F := F)) (StableHlo.after (hostOps0_3 (F := F)) (StableHlo.after (hostOps0_2 (F := F)) (StableHlo.after (hostOps0_1 (F := F)) (StableHlo.after (hostOps0 (F := F)) (V))))))

/-! ### The contents after each stretch -/

/-- After the two rows of the edge list. -/
abbrev pre1 (V : Valuation τ sig (Elt F)) : Valuation τ sig (Elt F) := StableHlo.after (hostOps0 (F := F)) V
/-- After the sensitive attribute at the source ends. -/
abbrev pre2 (V : Valuation τ sig (Elt F)) : Valuation τ sig (Elt F) := StableHlo.after (hostOps0_1 (F := F)) (pre1 V)
/-- After the sensitive attribute at the destination ends. -/
abbrev pre3 (V : Valuation τ sig (Elt F)) : Valuation τ sig (Elt F) := StableHlo.after (hostOps0_2 (F := F)) (pre2 V)
/-- After the comparison of the two. -/
abbrev pre4 (V : Valuation τ sig (Elt F)) : Valuation τ sig (Elt F) := StableHlo.after (hostOps0_3 (F := F)) (pre3 V)
/-- After the feature rows at the source ends. -/
abbrev pre5 (V : Valuation τ sig (Elt F)) : Valuation τ sig (Elt F) := StableHlo.after (hostOps0_4 (F := F)) (pre4 V)

/-! ### The four takes: under the index range, the plain gather at the wrapped indices -/

/-- The sensitive attribute taken at the source ends. -/
theorem s01_v4 (V : Valuation τ sig (Elt F)) (a2 : IVec S50000 32) (a1 : IVec S800000 32)
    (h2 : V (Proc.devRef .tc main_arg2) = a2) (h1 : V (Proc.devRef .tc main_v1) = a1) (hs : Small a1) :
    StableHlo.after (hostOps0_1 (F := F)) V (Proc.devRef .tc main_v4)
      = Host.gather gather_S50000_S800000x1_S800000_n_0_n_n_0_1_1 a2
          (broadcastInDim S800000x1 ![0] bcast_S800000_S800000x1_0
            (select (cmpi .slt a1 (broadcastInDim S800000 ![] bcast_S_S800000 (constantI S_ 32 0#32)))
              (addi a1 (broadcastInDim S800000 ![] bcast_S_S800000 (constantI S_ 32 50000#32))) a1)) := by
  simp only [hostOps0_1]; after_results_simp
  simp only [Cert.Lib.ofBuf_toBuf]
  have h2' : (TRef.of main_arg2 (by rfl) (by decide) (by rfl) : TRef sig ⟨S50000, .i32⟩).ofBuf (V (Proc.devRef .tc main_arg2)) = a2 := eq_of_heq ((cast_heq _ _).trans (heq_of_eq h2))
  have h1' : (TRef.of main_v1 (by rfl) (by decide) (by rfl) : TRef sig ⟨S800000, .i32⟩).ofBuf (V (Proc.devRef .tc main_v1)) = a1 := eq_of_heq ((cast_heq _ _).trans (heq_of_eq h1))
  simp only [h2', h1']
  refine eq_of_heq ((cast_heq _ _).trans (heq_of_eq ?_))
  rw [KTake.mask_one _ (KTake.small_col _ (KTake.small_wrap _ hs)), KTake.select_one_vec]

/-- The sensitive attribute taken at the destination ends. -/
theorem s02_v5 (V : Valuation τ sig (Elt F)) (a2 : IVec S50000 32) (a3 : IVec S800000 32)
    (h2 : V (Proc.devRef .tc main_arg2) = a2) (h3 : V (Proc.devRef .tc main_v3) = a3) (hs : Small a3) :
    StableHlo.after (hostOps0_2 (F := F)) V (Proc.devRef .tc main_v5)
      = Host.gather gather_S50000_S800000x1_S800000_n_0_n_n_0_1_1 a2
          (broadcastInDim S800000x1 ![0] bcast_S800000_S800000x1_0
            (select (cmpi .slt a3 (broadcastInDim S800000 ![] bcast_S_S800000 (constantI S_ 32 0#32)))
              (addi a3 (broadcastInDim S800000 ![] bcast_S_S800000 (constantI S_ 32 50000#32))) a3)) := by
  simp only [hostOps0_2]; after_results_simp
  simp only [Cert.Lib.ofBuf_toBuf]
  have h2' : (TRef.of main_arg2 (by rfl) (by decide) (by rfl) : TRef sig ⟨S50000, .i32⟩).ofBuf (V (Proc.devRef .tc main_arg2)) = a2 := eq_of_heq ((cast_heq _ _).trans (heq_of_eq h2))
  have h3' : (TRef.of main_v3 (by rfl) (by decide) (by rfl) : TRef sig ⟨S800000, .i32⟩).ofBuf (V (Proc.devRef .tc main_v3)) = a3 := eq_of_heq ((cast_heq _ _).trans (heq_of_eq h3))
  simp only [h2', h3']
  refine eq_of_heq ((cast_heq _ _).trans (heq_of_eq ?_))
  rw [KTake.mask_one _ (KTake.small_col _ (KTake.small_wrap _ hs)), KTake.select_one_vec]

/-- The feature rows taken at the source ends. -/
theorem s04_v8 (V : Valuation τ sig (Elt F)) (a0 : FVec F S50000x128 .f32) (a1 : IVec S800000 32)
    (h0 : V (Proc.devRef .tc main_arg0) = a0) (h1 : V (Proc.devRef .tc main_v1) = a1) (hs : Small a1) :
    StableHlo.after (hostOps0_4 (F := F)) V (Proc.devRef .tc main_v8)
      = Host.gather gather_S50000x128_S800000x1_S800000x128_1_0_n_n_0_1_1128 a0
          (broadcastInDim S800000x1 ![0] bcast_S800000_S800000x1_0
            (select (cmpi .slt a1 (broadcastInDim S800000 ![] bcast_S_S800000 (constantI S_ 32 0#32)))
              (addi a1 (broadcastInDim S800000 ![] bcast_S_S800000 (constantI S_ 32 50000#32))) a1)) := by
  simp only [hostOps0_4]; after_results_simp
  simp only [Cert.Lib.ofBuf_toBuf]
  have h0' : (TRef.of main_arg0 (by rfl) (by decide) (by rfl) : TRef sig ⟨S50000x128, .f32⟩).ofBuf (V (Proc.devRef .tc main_arg0)) = a0 := eq_of_heq ((cast_heq _ _).trans (heq_of_eq h0))
  have h1' : (TRef.of main_v1 (by rfl) (by decide) (by rfl) : TRef sig ⟨S800000, .i32⟩).ofBuf (V (Proc.devRef .tc main_v1)) = a1 := eq_of_heq ((cast_heq _ _).trans (heq_of_eq h1))
  simp only [h0', h1']
  refine eq_of_heq ((cast_heq _ _).trans (heq_of_eq ?_))
  rw [KTake.mask_one _ (KTake.small_col _ (KTake.small_wrap _ hs)), KTake.select_one_mat]

/-- The feature rows taken at the destination ends. -/
theorem s05_v9 (V : Valuation τ sig (Elt F)) (a0 : FVec F S50000x128 .f32) (a3 : IVec S800000 32)
    (h0 : V (Proc.devRef .tc main_arg0) = a0) (h3 : V (Proc.devRef .tc main_v3) = a3) (hs : Small a3) :
    StableHlo.after (hostOps0_5 (F := F)) V (Proc.devRef .tc main_v9)
      = Host.gather gather_S50000x128_S800000x1_S800000x128_1_0_n_n_0_1_1128 a0
          (broadcastInDim S800000x1 ![0] bcast_S800000_S800000x1_0
            (select (cmpi .slt a3 (broadcastInDim S800000 ![] bcast_S_S800000 (constantI S_ 32 0#32)))
              (addi a3 (broadcastInDim S800000 ![] bcast_S_S800000 (constantI S_ 32 50000#32))) a3)) := by
  simp only [hostOps0_5]; after_results_simp
  simp only [Cert.Lib.ofBuf_toBuf]
  have h0' : (TRef.of main_arg0 (by rfl) (by decide) (by rfl) : TRef sig ⟨S50000x128, .f32⟩).ofBuf (V (Proc.devRef .tc main_arg0)) = a0 := eq_of_heq ((cast_heq _ _).trans (heq_of_eq h0))
  have h3' : (TRef.of main_v3 (by rfl) (by decide) (by rfl) : TRef sig ⟨S800000, .i32⟩).ofBuf (V (Proc.devRef .tc main_v3)) = a3 := eq_of_heq ((cast_heq _ _).trans (heq_of_eq h3))
  simp only [h0', h3']
  refine eq_of_heq ((cast_heq _ _).trans (heq_of_eq ?_))
  rw [KTake.mask_one _ (KTake.small_col _ (KTake.small_wrap _ hs)), KTake.select_one_mat]

/-- Whether the two taken attributes differ, as a float. -/
theorem s03_v7 (V : Valuation τ sig (Elt F)) (a4 a5 : IVec S800000 32)
    (h4 : V (Proc.devRef .tc main_v4) = a4) (h5 : V (Proc.devRef .tc main_v5) = a5) :
    StableHlo.after (hostOps0_3 (F := F)) V (Proc.devRef .tc main_v7) = (uitofp .f32 (cmpi .ne a4 a5) : FVec F S800000 .f32) := by
  subst h4 h5
  simp only [hostOps0_3]; after_results_simp

/-! ### What a stretch leaves alone, and what the contents hold where a later stretch reads -/

theorem keep02_v4 (V : Valuation τ sig (Elt F)) :
    StableHlo.after (hostOps0_2 (F := F)) V (Proc.devRef .tc main_v4) = V (Proc.devRef .tc main_v4) := by
  simp only [hostOps0_2]; after_results_simp

theorem keep04_v7 (V : Valuation τ sig (Elt F)) :
    StableHlo.after (hostOps0_4 (F := F)) V (Proc.devRef .tc main_v7) = V (Proc.devRef .tc main_v7) := by
  simp only [hostOps0_4]; after_results_simp

theorem keep05_v7 (V : Valuation τ sig (Elt F)) :
    StableHlo.after (hostOps0_5 (F := F)) V (Proc.devRef .tc main_v7) = V (Proc.devRef .tc main_v7) := by
  simp only [hostOps0_5]; after_results_simp

theorem keep05_v8 (V : Valuation τ sig (Elt F)) :
    StableHlo.after (hostOps0_5 (F := F)) V (Proc.devRef .tc main_v8) = V (Proc.devRef .tc main_v8) := by
  simp only [hostOps0_5]; after_results_simp

theorem pre1_v1 (V : Valuation τ sig (Elt F)) (x1 : IVec S2x800000 32) (h1 : V (Proc.devRef .tc main_arg1) = x1) :
    pre1 V (Proc.devRef .tc main_v1) = val_main_v1 (F := F) x1 := by
  subst h1
  simp only [pre1, hostOps0]; after_results_simp
  rfl

theorem pre1_arg2 (V : Valuation τ sig (Elt F)) : pre1 V (Proc.devRef .tc main_arg2) = V (Proc.devRef .tc main_arg2) := by
  simp only [pre1, hostOps0]; after_results_simp

theorem pre2_v3 (V : Valuation τ sig (Elt F)) (x1 : IVec S2x800000 32) (h1 : V (Proc.devRef .tc main_arg1) = x1) :
    pre2 V (Proc.devRef .tc main_v3) = val_main_v3 (F := F) x1 := by
  subst h1
  simp only [pre2, pre1, hostOps0, hostOps0_1]; after_results_simp
  rfl

theorem pre2_arg2 (V : Valuation τ sig (Elt F)) : pre2 V (Proc.devRef .tc main_arg2) = V (Proc.devRef .tc main_arg2) := by
  simp only [pre2, pre1, hostOps0, hostOps0_1]; after_results_simp

theorem pre4_v1 (V : Valuation τ sig (Elt F)) (x1 : IVec S2x800000 32) (h1 : V (Proc.devRef .tc main_arg1) = x1) :
    pre4 V (Proc.devRef .tc main_v1) = val_main_v1 (F := F) x1 := by
  subst h1
  simp only [pre4, pre3, pre2, pre1, hostOps0, hostOps0_1, hostOps0_2, hostOps0_3]; after_results_simp
  rfl

theorem pre4_arg0 (V : Valuation τ sig (Elt F)) : pre4 V (Proc.devRef .tc main_arg0) = V (Proc.devRef .tc main_arg0) := by
  simp only [pre4, pre3, pre2, pre1, hostOps0, hostOps0_1, hostOps0_2, hostOps0_3]; after_results_simp

theorem pre5_v3 (V : Valuation τ sig (Elt F)) (x1 : IVec S2x800000 32) (h1 : V (Proc.devRef .tc main_arg1) = x1) :
    pre5 V (Proc.devRef .tc main_v3) = val_main_v3 (F := F) x1 := by
  subst h1
  simp only [pre5, pre4, pre3, pre2, pre1, hostOps0, hostOps0_1, hostOps0_2, hostOps0_3, hostOps0_4]; after_results_simp
  rfl

theorem pre5_arg0 (V : Valuation τ sig (Elt F)) : pre5 V (Proc.devRef .tc main_arg0) = V (Proc.devRef .tc main_arg0) := by
  simp only [pre5, pre4, pre3, pre2, pre1, hostOps0, hostOps0_1, hostOps0_2, hostOps0_3, hostOps0_4]; after_results_simp

/-! ### The statements -/

/-- The source row of the edge list. -/
theorem v1 (V : Valuation τ sig (Elt F)) (x1 : IVec S2x800000 32) (h1 : V (Proc.devRef .tc main_arg1) = x1) :
    run0 V (Proc.devRef .tc main_v1) = val_main_v1 (F := F) x1 := by
  subst h1
  simp only [run0, hostOps0, hostOps0_1, hostOps0_2, hostOps0_3, hostOps0_4, hostOps0_5]; after_results_simp
  rfl

/-- The destination row of the edge list. -/
theorem v3 (V : Valuation τ sig (Elt F)) (x1 : IVec S2x800000 32) (h1 : V (Proc.devRef .tc main_arg1) = x1) :
    run0 V (Proc.devRef .tc main_v3) = val_main_v3 (F := F) x1 := by
  subst h1
  simp only [run0, hostOps0, hostOps0_1, hostOps0_2, hostOps0_3, hostOps0_4, hostOps0_5]; after_results_simp
  rfl

/-- Whether the two ends of an edge differ in the sensitive attribute, as a float. -/
theorem v7 (V : Valuation τ sig (Elt F)) (x1 : IVec S2x800000 32) (x2 : IVec S50000 32) (h1 : V (Proc.devRef .tc main_arg1) = x1) (h2 : V (Proc.devRef .tc main_arg2) = x2)
    (hs : Small x1) :
    run0 V (Proc.devRef .tc main_v7) = val_main_v47 (F := F) x1 x2 := by
  have e4 := (keep02_v4 (pre2 V)).trans (s01_v4 (pre1 V) x2 (val_main_v1 (F := F) x1) ((pre1_arg2 V).trans h2) (pre1_v1 V x1 h1) (KTake.src_small x1 hs))
  have e5 := s02_v5 (pre2 V) x2 (val_main_v3 (F := F) x1) ((pre2_arg2 V).trans h2) (pre2_v3 V x1 h1) (KTake.dst_small x1 hs)
  exact (keep05_v7 _).trans ((keep04_v7 _).trans ((s03_v7 (pre3 V) _ _ e4 e5).trans rfl))

/-- The feature rows at the source ends. -/
theorem v8 (V : Valuation τ sig (Elt F)) (x0 : FVec F S50000x128 .f32) (x1 : IVec S2x800000 32) (h0 : V (Proc.devRef .tc main_arg0) = x0) (h1 : V (Proc.devRef .tc main_arg1) = x1)
    (hs : Small x1) :
    run0 V (Proc.devRef .tc main_v8) = val_main_v10 (F := F) x0 x1 := by
  exact (keep05_v8 _).trans ((s04_v8 (pre4 V) x0 (val_main_v1 (F := F) x1) ((pre4_arg0 V).trans h0) (pre4_v1 V x1 h1) (KTake.src_small x1 hs)).trans rfl)

/-- The feature rows at the destination ends. -/
theorem v9 (V : Valuation τ sig (Elt F)) (x0 : FVec F S50000x128 .f32) (x1 : IVec S2x800000 32) (h0 : V (Proc.devRef .tc main_arg0) = x0) (h1 : V (Proc.devRef .tc main_arg1) = x1)
    (hs : Small x1) :
    run0 V (Proc.devRef .tc main_v9) = val_main_v17 (F := F) x0 x1 := by
  exact (s05_v9 (pre5 V) x0 (val_main_v3 (F := F) x1) ((pre5_arg0 V).trans h0) (pre5_v3 V x1 h1) (KTake.dst_small x1 hs)).trans rfl

/-! No operation of these stretches writes an argument. -/
theorem keep_arg0 (V : Valuation τ sig (Elt F)) : run0 V (Proc.devRef .tc main_arg0) = V (Proc.devRef .tc main_arg0) := by
  simp only [run0, hostOps0, hostOps0_1, hostOps0_2, hostOps0_3, hostOps0_4, hostOps0_5]; after_results_simp

theorem keep_arg3 (V : Valuation τ sig (Elt F)) : run0 V (Proc.devRef .tc main_arg3) = V (Proc.devRef .tc main_arg3) := by
  simp only [run0, hostOps0, hostOps0_1, hostOps0_2, hostOps0_3, hostOps0_4, hostOps0_5]; after_results_simp

theorem keep_arg4 (V : Valuation τ sig (Elt F)) : run0 V (Proc.devRef .tc main_arg4) = V (Proc.devRef .tc main_arg4) := by
  simp only [run0, hostOps0, hostOps0_1, hostOps0_2, hostOps0_3, hostOps0_4, hostOps0_5]; after_results_simp

theorem keep_arg5 (V : Valuation τ sig (Elt F)) : run0 V (Proc.devRef .tc main_arg5) = V (Proc.devRef .tc main_arg5) := by
  simp only [run0, hostOps0, hostOps0_1, hostOps0_2, hostOps0_3, hostOps0_4, hostOps0_5]; after_results_simp

theorem keep_arg6 (V : Valuation τ sig (Elt F)) : run0 V (Proc.devRef .tc main_arg6) = V (Proc.devRef .tc main_arg6) := by
  simp only [run0, hostOps0, hostOps0_1, hostOps0_2, hostOps0_3, hostOps0_4, hostOps0_5]; after_results_simp

theorem keep_arg7 (V : Valuation τ sig (Elt F)) : run0 V (Proc.devRef .tc main_arg7) = V (Proc.devRef .tc main_arg7) := by
  simp only [run0, hostOps0, hostOps0_1, hostOps0_2, hostOps0_3, hostOps0_4, hostOps0_5]; after_results_simp

theorem keep_arg8 (V : Valuation τ sig (Elt F)) : run0 V (Proc.devRef .tc main_arg8) = V (Proc.devRef .tc main_arg8) := by
  simp only [run0, hostOps0, hostOps0_1, hostOps0_2, hostOps0_3, hostOps0_4, hostOps0_5]; after_results_simp

end Cert.KernelIdeal.KSt0

end
-- ==== Proof.KStage1.lean ====
/-
  Between the first and the second launch the program computes, on the host: the weight of every edge from its similarity
  and its multiplicity (max (s · exp (−m), 1e-4)); every node's degree (one plus the sum of the weights of the edges
  arriving at it) and its inverse square root where the degree is positive; the symmetric normalisation of every edge
  (inverse-root degree at the departure end · weight · inverse-root degree at the arrival end) as a column; the squared
  inverse-root degrees as a column (the self-loop weights); the features times the first layer's weight matrix; and the
  rows of that product at the departure ends of the edges.

  Claim: started from any contents that hold the reference computation's intermediate values at the buffers these
  operations read, the buffers read later hold the reference's intermediate values too. The operations are run one
  stretch at a time, each stretch as a function of the contents of the buffers it reads; the stretches are chained; the
  resulting expressions are the reference's, by unfolding its definitions, except in two places. The rows are taken with
  an in-range test and a fill value: for indices that all lie in [0, 50000) the test is true everywhere and the fill is
  never used. The normalisation is made a column by a reshape where the reference uses a broadcast along the rows: both
  put entry r of the vector at (r, 0).
-/
import proofs.«408912_j5085241279118_3_alg».proof.Proof.Gen.KernelIdeal.Launch
import proofs.«408912_j5085241279118_3_alg».proof.Proof.Gen.ReferenceIdeal.Read
import proofs.«408912_j5085241279118_3_alg».proof.Proof.KTake
import proofs.«408912_j5085241279118_3_alg».proof.Proof.LibTRefCast
import Idealize.ShloMosaic.Lib.StableHlo.Run

set_option maxRecDepth 16384

noncomputable section

namespace Cert.KernelIdeal.KSt1

open Cert.KernelIdeal Cert.KernelIdeal.Gen Cert.KernelIdeal.KTake
open Cert.ReferenceIdeal.Read
open Idealize.ShloMosaic Idealize.ShloMosaic.TcCoe Idealize.SL.Sem Idealize.ShloMosaic.StableHlo

variable {F : FTy → Type} [FloatOps F]
/-- The contents after the four stretches of host operations between the first and the second launch. -/
abbrev run1 (V : Valuation τ sig (Elt F)) : Valuation τ sig (Elt F) :=
  StableHlo.after (hostOps1_3 (F := F)) (StableHlo.after (hostOps1_2 (F := F)) (StableHlo.after (hostOps1_1 (F := F)) (StableHlo.after (hostOps1 (F := F)) (V))))

/-! ## The operations of the stretches, as functions of what they read -/

/-- An index vector with its negative entries wrapped: an entry below zero is moved up by the node count 50000. -/
def wrapK (idx : IVec S800000 32) : IVec S800000 32 :=
  select (cmpi .slt idx (broadcastInDim S800000 ![] bcast_S_S800000 (constantI S_ 32 0#32)))
    (addi idx (broadcastInDim S800000 ![] bcast_S_S800000 (constantI S_ 32 50000#32))) idx

/-- The weight of every edge from its similarity `s` and its multiplicity `m`: max (s · exp (−m), 1e-4). -/
def ewK (s m : FVec F S800000 .f32) : FVec F S800000 .f32 :=
  maximumf (mulf s (Host.exp (mulf (broadcastInDim S800000 ![] bcast_S_S800000 (constant S_ .f32 0xBF800000#32)) m)))
    (broadcastInDim S800000 ![] bcast_S_S800000 (constant S_ .f32 0x38D1B717#32))

/-- The degree of every node with its self loop: one plus the sum of the weights `w` of the edges whose arrival end `d`
    is the node. -/
def degK (d : IVec S800000 32) (w : FVec F S800000 .f32) : FVec F S50000 .f32 :=
  addf (Host.scatterAdd scatter_S50000_S800000x1_S800000_n_0_0_1 (broadcastInDim S50000 ![] bcast_S_S50000 (constant S_ .f32 0x00000000#32))
      (broadcastInDim S800000x1 ![0] bcast_S800000_S800000x1_0 d) w)
    (broadcastInDim S50000 ![] bcast_S_S50000 (constant S_ .f32 0x3F800000#32))

/-- The inverse square root of a degree vector `g` where it is positive, zero elsewhere. -/
def dinvK (g : FVec F S50000 .f32) : FVec F S50000 .f32 :=
  select (cmpf .ogt g (broadcastInDim S50000 ![] bcast_S_S50000 (constant S_ .f32 0x00000000#32)))
    (Host.powf g (broadcastInDim S50000 ![] bcast_S_S50000 (constant S_ .f32 0xBF000000#32)))
    (broadcastInDim S50000 ![] bcast_S_S50000 (id (constant S_ .f32 0x00000000#32)))

/-- The symmetric normalisation of every edge: `dinv` at its departure end `s`, times its weight `w`, times `dinv` at its
    arrival end `d`. -/
def normK (dinv : FVec F S50000 .f32) (s d : IVec S800000 32) (w : FVec F S800000 .f32) : FVec F S800000 .f32 :=
  mulf (mulf (Host.gather gather_S50000_S800000x1_S800000_n_0_n_n_0_1_1 dinv (broadcastInDim S800000x1 ![0] bcast_S800000_S800000x1_0 (wrapK s))) w)
    (Host.gather gather_S50000_S800000x1_S800000_n_0_n_n_0_1_1 dinv (broadcastInDim S800000x1 ![0] bcast_S800000_S800000x1_0 (wrapK d)))

/-- A vector laid out as a one-column table by a reshape is the same table as by a broadcast along the rows: both
    read entry `j 0` of the vector at `(j 0, 0)`. -/
theorem col_eq {α : Type} (v : S800000.Idx → α) :
    shapeCast S800000x1 v shapeCasts_S800000_S800000x1 = broadcastInDim S800000x1 ![0] bcast_S800000_S800000x1_0 v := by
  funext j
  have hj0 : (j 0).val < 800000 := (j 0).isLt
  have hj1 : (j 1).val < 1 := (j 1).isLt
  have hl := shapeCast_apply v shapeCasts_S800000_S800000x1 j (fun a => match a with | ⟨0, _⟩ => ⟨(j 0).val, (j 0).isLt⟩)
    (by rw [Shape.rowMajor_val_two, Shape.rowMajor_val_one]; show (j 0).val = (j 0).val * 1 + (j 1).val; omega)
  have hr := broadcastInDim_apply _ bcast_S800000_S800000x1_0 v j (fun a => match a with | ⟨0, _⟩ => ⟨(j 0).val, (j 0).isLt⟩)
    (fun a => match a with | ⟨0, _⟩ => by show (j 0).val = if (800000 : Nat) = 1 then 0 else (j 0).val; rw [if_neg (by decide)])
  exact hl.trans hr.symm

/-! ## The first stretch: edge weights, degrees -/

/-- The edge weights it leaves. -/
theorem s1_v17 (V : Valuation τ sig (Elt F)) (s m : FVec F S800000 .f32)
    (h10 : shapeCast S800000 (V (Proc.devRef .tc main_v10)) shapeCasts_S800000x1_S800000 = s)
    (h7 : V (Proc.devRef .tc main_v7) = m) :
    StableHlo.after (hostOps1 (F := F)) V (Proc.devRef .tc main_v17) = ewK s m := by
  subst h10 h7
  simp only [hostOps1]; after_results_simp
  rfl

/-- Where the degree is positive. -/
theorem s1_v24 (V : Valuation τ sig (Elt F)) (s m : FVec F S800000 .f32) (d : IVec S800000 32)
    (h10 : shapeCast S800000 (V (Proc.devRef .tc main_v10)) shapeCasts_S800000x1_S800000 = s)
    (h7 : V (Proc.devRef .tc main_v7) = m) (h3 : V (Proc.devRef .tc main_v3) = d) :
    StableHlo.after (hostOps1 (F := F)) V (Proc.devRef .tc main_v24)
      = cmpf .ogt (degK d (ewK s m)) (broadcastInDim S50000 ![] bcast_S_S50000 (constant S_ .f32 0x00000000#32)) := by
  subst h10 h7 h3
  simp only [hostOps1]; after_results_simp
  rfl

/-- The degree to the power −1/2. -/
theorem s1_v26 (V : Valuation τ sig (Elt F)) (s m : FVec F S800000 .f32) (d : IVec S800000 32)
    (h10 : shapeCast S800000 (V (Proc.devRef .tc main_v10)) shapeCasts_S800000x1_S800000 = s)
    (h7 : V (Proc.devRef .tc main_v7) = m) (h3 : V (Proc.devRef .tc main_v3) = d) :
    StableHlo.after (hostOps1 (F := F)) V (Proc.devRef .tc main_v26)
      = Host.powf (degK d (ewK s m)) (broadcastInDim S50000 ![] bcast_S_S50000 (constant S_ .f32 0xBF000000#32)) := by
  subst h10 h7 h3
  simp only [hostOps1]; after_results_simp
  rfl

/-- The zero the masked inverse falls back to. -/
theorem s1_cst5 (V : Valuation τ sig (Elt F)) :
    StableHlo.after (hostOps1 (F := F)) V (Proc.devRef .tc main_cst_5) = constant S_ .f32 0x00000000#32 := by
  simp only [hostOps1]; after_results_simp

/-! ## The masked-inverse call -/

/-- It selects, under the mask `m`, `p` and elsewhere the scalar `z` repeated. -/
theorem s11_v27 (V : Valuation τ sig (Elt F)) (m : IVec S50000 1) (p : FVec F S50000 .f32) (z : FVec F S_ .f32)
    (h24 : V (Proc.devRef .tc main_v24) = m) (h26 : V (Proc.devRef .tc main_v26) = p) (h5 : V (Proc.devRef .tc main_cst_5) = z) :
    StableHlo.after (hostOps1_1 (F := F)) V (Proc.devRef .tc main_v27)
      = select m p (broadcastInDim S50000 ![] bcast_S_S50000 (id z)) := by
  simp only [hostOps1_1]; after_results_simp
  simp only [Cert.Lib.ofBuf_toBuf]
  have h24' : (TRef.of main_v24 (by rfl) (by decide) (by rfl) : TRef sig ⟨S50000, .i1⟩).ofBuf (V (Proc.devRef .tc main_v24)) = m :=
    eq_of_heq ((cast_heq _ _).trans (heq_of_eq h24))
  have h26' : (TRef.of main_v26 (by rfl) (by decide) (by rfl) : TRef sig ⟨S50000, .f32⟩).ofBuf (V (Proc.devRef .tc main_v26)) = p :=
    eq_of_heq ((cast_heq _ _).trans (heq_of_eq h26))
  have h5' : (TRef.of main_cst_5 (by rfl) (by decide) (by rfl) : TRef sig ⟨S_, .f32⟩).ofBuf (V (Proc.devRef .tc main_cst_5)) = z :=
    eq_of_heq ((cast_heq _ _).trans (heq_of_eq h5))
  simp only [h24', h26', h5']
  refine eq_of_heq ((cast_heq _ _).trans (heq_of_eq ?_))
  rfl

/-! ## The third stretch: the normalisation, the self-loop weights, the linear map -/

/-- The normalisation of every edge, reshaped to a column. -/
theorem s12_v44 (V : Valuation τ sig (Elt F)) (dinv : FVec F S50000 .f32) (s d : IVec S800000 32) (w : FVec F S800000 .f32)
    (h27 : V (Proc.devRef .tc main_v27) = dinv) (h1 : V (Proc.devRef .tc main_v1) = s) (h3 : V (Proc.devRef .tc main_v3) = d)
    (h17 : V (Proc.devRef .tc main_v17) = w) :
    StableHlo.after (hostOps1_2 (F := F)) V (Proc.devRef .tc main_v44)
      = shapeCast S800000x1 (normK dinv s d w) shapeCasts_S800000_S800000x1 := by
  subst h27 h1 h3 h17
  simp only [hostOps1_2]; after_results_simp
  rfl

/-- The squares of `dinv`, as a column. -/
theorem s12_v46 (V : Valuation τ sig (Elt F)) (dinv : FVec F S50000 .f32) (h27 : V (Proc.devRef .tc main_v27) = dinv) :
    StableHlo.after (hostOps1_2 (F := F)) V (Proc.devRef .tc main_v46)
      = broadcastInDim S50000x1 ![0] bcast_S50000_S50000x1_0 (mulf dinv dinv) := by
  subst h27
  simp only [hostOps1_2]; after_results_simp

/-- The features times the weight matrix. -/
theorem s12_v47 (V : Valuation τ sig (Elt F)) (x0 : FVec F S50000x128 .f32) (x3 : FVec F S128x128 .f32)
    (h0 : V (Proc.devRef .tc main_arg0) = x0) (h3' : V (Proc.devRef .tc main_arg3) = x3) :
    StableHlo.after (hostOps1_2 (F := F)) V (Proc.devRef .tc main_v47)
      = Host.dotGeneral dot_S50000x128_S128x128_S50000x128_1_0_0_1_n_n none x0 x3 := by
  subst h0 h3'
  simp only [hostOps1_2]; after_results_simp

/-! ## The row-taking call -/

/-- With every index in range the call is the plain taking of the rows of `y` at the wrapped indices: its in-range
    mask is true everywhere, so the select under it keeps the taken rows. -/
theorem s13_v48 (V : Valuation τ sig (Elt F)) (y : FVec F S50000x128 .f32) (s : IVec S800000 32)
    (h47 : V (Proc.devRef .tc main_v47) = y) (h1 : V (Proc.devRef .tc main_v1) = s) (hs : Small s) :
    StableHlo.after (hostOps1_3 (F := F)) V (Proc.devRef .tc main_v48)
      = Host.gather gather_S50000x128_S800000x1_S800000x128_1_0_n_n_0_1_1128 y (broadcastInDim S800000x1 ![0] bcast_S800000_S800000x1_0 (wrapK s)) := by
  simp only [hostOps1_3]; after_results_simp
  simp only [Cert.Lib.ofBuf_toBuf]
  have h47' : (TRef.of main_v47 (by rfl) (by decide) (by rfl) : TRef sig ⟨S50000x128, .f32⟩).ofBuf (V (Proc.devRef .tc main_v47)) = y :=
    eq_of_heq ((cast_heq _ _).trans (heq_of_eq h47))
  have h1' : (TRef.of main_v1 (by rfl) (by decide) (by rfl) : TRef sig ⟨S800000, .i32⟩).ofBuf (V (Proc.devRef .tc main_v1)) = s :=
    eq_of_heq ((cast_heq _ _).trans (heq_of_eq h1))
  simp only [h47', h1']
  refine eq_of_heq ((cast_heq _ _).trans (heq_of_eq ?_))
  unfold wrapK
  rw [KTake.mask_one _ (KTake.small_col _ (KTake.small_wrap _ hs)), KTake.select_one_mat]

/-! Buffers the first stretch does not write keep their contents. -/
theorem k1_v1 (V : Valuation τ sig (Elt F)) :
    StableHlo.after (hostOps1 (F := F)) V (Proc.devRef .tc main_v1) = V (Proc.devRef .tc main_v1) := by
  simp only [hostOps1]; after_results_simp
theorem k1_v3 (V : Valuation τ sig (Elt F)) :
    StableHlo.after (hostOps1 (F := F)) V (Proc.devRef .tc main_v3) = V (Proc.devRef .tc main_v3) := by
  simp only [hostOps1]; after_results_simp
theorem k1_arg0 (V : Valuation τ sig (Elt F)) :
    StableHlo.after (hostOps1 (F := F)) V (Proc.devRef .tc main_arg0) = V (Proc.devRef .tc main_arg0) := by
  simp only [hostOps1]; after_results_simp
theorem k1_arg3 (V : Valuation τ sig (Elt F)) :
    StableHlo.after (hostOps1 (F := F)) V (Proc.devRef .tc main_arg3) = V (Proc.devRef .tc main_arg3) := by
  simp only [hostOps1]; after_results_simp
theorem k1_arg4 (V : Valuation τ sig (Elt F)) :
    StableHlo.after (hostOps1 (F := F)) V (Proc.devRef .tc main_arg4) = V (Proc.devRef .tc main_arg4) := by
  simp only [hostOps1]; after_results_simp
theorem k1_arg5 (V : Valuation τ sig (Elt F)) :
    StableHlo.after (hostOps1 (F := F)) V (Proc.devRef .tc main_arg5) = V (Proc.devRef .tc main_arg5) := by
  simp only [hostOps1]; after_results_simp
theorem k1_arg6 (V : Valuation τ sig (Elt F)) :
    StableHlo.after (hostOps1 (F := F)) V (Proc.devRef .tc main_arg6) = V (Proc.devRef .tc main_arg6) := by
  simp only [hostOps1]; after_results_simp
theorem k1_arg7 (V : Valuation τ sig (Elt F)) :
    StableHlo.after (hostOps1 (F := F)) V (Proc.devRef .tc main_arg7) = V (Proc.devRef .tc main_arg7) := by
  simp only [hostOps1]; after_results_simp
theorem k1_arg8 (V : Valuation τ sig (Elt F)) :
    StableHlo.after (hostOps1 (F := F)) V (Proc.devRef .tc main_arg8) = V (Proc.devRef .tc main_arg8) := by
  simp only [hostOps1]; after_results_simp

/-! Buffers the masked-inverse call does not write keep their contents. -/
theorem k11_v17 (V : Valuation τ sig (Elt F)) :
    StableHlo.after (hostOps1_1 (F := F)) V (Proc.devRef .tc main_v17) = V (Proc.devRef .tc main_v17) := by
  simp only [hostOps1_1]; after_results_simp
theorem k11_v1 (V : Valuation τ sig (Elt F)) :
    StableHlo.after (hostOps1_1 (F := F)) V (Proc.devRef .tc main_v1) = V (Proc.devRef .tc main_v1) := by
  simp only [hostOps1_1]; after_results_simp
theorem k11_v3 (V : Valuation τ sig (Elt F)) :
    StableHlo.after (hostOps1_1 (F := F)) V (Proc.devRef .tc main_v3) = V (Proc.devRef .tc main_v3) := by
  simp only [hostOps1_1]; after_results_simp
theorem k11_arg0 (V : Valuation τ sig (Elt F)) :
    StableHlo.after (hostOps1_1 (F := F)) V (Proc.devRef .tc main_arg0) = V (Proc.devRef .tc main_arg0) := by
  simp only [hostOps1_1]; after_results_simp
theorem k11_arg3 (V : Valuation τ sig (Elt F)) :
    StableHlo.after (hostOps1_1 (F := F)) V (Proc.devRef .tc main_arg3) = V (Proc.devRef .tc main_arg3) := by
  simp only [hostOps1_1]; after_results_simp
theorem k11_arg4 (V : Valuation τ sig (Elt F)) :
    StableHlo.after (hostOps1_1 (F := F)) V (Proc.devRef .tc main_arg4) = V (Proc.devRef .tc main_arg4) := by
  simp only [hostOps1_1]; after_results_simp
theorem k11_arg5 (V : Valuation τ sig (Elt F)) :
    StableHlo.after (hostOps1_1 (F := F)) V (Proc.devRef .tc main_arg5) = V (Proc.devRef .tc main_arg5) := by
  simp only [hostOps1_1]; after_results_simp
theorem k11_arg6 (V : Valuation τ sig (Elt F)) :
    StableHlo.after (hostOps1_1 (F := F)) V (Proc.devRef .tc main_arg6) = V (Proc.devRef .tc main_arg6) := by
  simp only [hostOps1_1]; after_results_simp
theorem k11_arg7 (V : Valuation τ sig (Elt F)) :
    StableHlo.after (hostOps1_1 (F := F)) V (Proc.devRef .tc main_arg7) = V (Proc.devRef .tc main_arg7) := by
  simp only [hostOps1_1]; after_results_simp
theorem k11_arg8 (V : Valuation τ sig (Elt F)) :
    StableHlo.after (hostOps1_1 (F := F)) V (Proc.devRef .tc main_arg8) = V (Proc.devRef .tc main_arg8) := by
  simp only [hostOps1_1]; after_results_simp

/-! Buffers the third stretch does not write keep their contents. -/
theorem k12_v1 (V : Valuation τ sig (Elt F)) :
    StableHlo.after (hostOps1_2 (F := F)) V (Proc.devRef .tc main_v1) = V (Proc.devRef .tc main_v1) := by
  simp only [hostOps1_2]; after_results_simp
theorem k12_v3 (V : Valuation τ sig (Elt F)) :
    StableHlo.after (hostOps1_2 (F := F)) V (Proc.devRef .tc main_v3) = V (Proc.devRef .tc main_v3) := by
  simp only [hostOps1_2]; after_results_simp
theorem k12_arg4 (V : Valuation τ sig (Elt F)) :
    StableHlo.after (hostOps1_2 (F := F)) V (Proc.devRef .tc main_arg4) = V (Proc.devRef .tc main_arg4) := by
  simp only [hostOps1_2]; after_results_simp
theorem k12_arg5 (V : Valuation τ sig (Elt F)) :
    StableHlo.after (hostOps1_2 (F := F)) V (Proc.devRef .tc main_arg5) = V (Proc.devRef .tc main_arg5) := by
  simp only [hostOps1_2]; after_results_simp
theorem k12_arg6 (V : Valuation τ sig (Elt F)) :
    StableHlo.after (hostOps1_2 (F := F)) V (Proc.devRef .tc main_arg6) = V (Proc.devRef .tc main_arg6) := by
  simp only [hostOps1_2]; after_results_simp
theorem k12_arg7 (V : Valuation τ sig (Elt F)) :
    StableHlo.after (hostOps1_2 (F := F)) V (Proc.devRef .tc main_arg7) = V (Proc.devRef .tc main_arg7) := by
  simp only [hostOps1_2]; after_results_simp
theorem k12_arg8 (V : Valuation τ sig (Elt F)) :
    StableHlo.after (hostOps1_2 (F := F)) V (Proc.devRef .tc main_arg8) = V (Proc.devRef .tc main_arg8) := by
  simp only [hostOps1_2]; after_results_simp

/-! Buffers the row-taking call does not write keep their contents. -/
theorem k13_v44 (V : Valuation τ sig (Elt F)) :
    StableHlo.after (hostOps1_3 (F := F)) V (Proc.devRef .tc main_v44) = V (Proc.devRef .tc main_v44) := by
  simp only [hostOps1_3]; after_results_simp
theorem k13_v46 (V : Valuation τ sig (Elt F)) :
    StableHlo.after (hostOps1_3 (F := F)) V (Proc.devRef .tc main_v46) = V (Proc.devRef .tc main_v46) := by
  simp only [hostOps1_3]; after_results_simp
theorem k13_v47 (V : Valuation τ sig (Elt F)) :
    StableHlo.after (hostOps1_3 (F := F)) V (Proc.devRef .tc main_v47) = V (Proc.devRef .tc main_v47) := by
  simp only [hostOps1_3]; after_results_simp
theorem k13_v1 (V : Valuation τ sig (Elt F)) :
    StableHlo.after (hostOps1_3 (F := F)) V (Proc.devRef .tc main_v1) = V (Proc.devRef .tc main_v1) := by
  simp only [hostOps1_3]; after_results_simp
theorem k13_v3 (V : Valuation τ sig (Elt F)) :
    StableHlo.after (hostOps1_3 (F := F)) V (Proc.devRef .tc main_v3) = V (Proc.devRef .tc main_v3) := by
  simp only [hostOps1_3]; after_results_simp
theorem k13_arg4 (V : Valuation τ sig (Elt F)) :
    StableHlo.after (hostOps1_3 (F := F)) V (Proc.devRef .tc main_arg4) = V (Proc.devRef .tc main_arg4) := by
  simp only [hostOps1_3]; after_results_simp
theorem k13_arg5 (V : Valuation τ sig (Elt F)) :
    StableHlo.after (hostOps1_3 (F := F)) V (Proc.devRef .tc main_arg5) = V (Proc.devRef .tc main_arg5) := by
  simp only [hostOps1_3]; after_results_simp
theorem k13_arg6 (V : Valuation τ sig (Elt F)) :
    StableHlo.after (hostOps1_3 (F := F)) V (Proc.devRef .tc main_arg6) = V (Proc.devRef .tc main_arg6) := by
  simp only [hostOps1_3]; after_results_simp
theorem k13_arg7 (V : Valuation τ sig (Elt F)) :
    StableHlo.after (hostOps1_3 (F := F)) V (Proc.devRef .tc main_arg7) = V (Proc.devRef .tc main_arg7) := by
  simp only [hostOps1_3]; after_results_simp
theorem k13_arg8 (V : Valuation τ sig (Elt F)) :
    StableHlo.after (hostOps1_3 (F := F)) V (Proc.devRef .tc main_arg8) = V (Proc.devRef .tc main_arg8) := by
  simp only [hostOps1_3]; after_results_simp

/-! ## The four stretches in sequence -/

section Composed

variable (V : Valuation τ sig (Elt F)) (x0 : FVec F S50000x128 .f32) (x1 : IVec S2x800000 32) (x2 : IVec S50000 32)

/-- After the masked-inverse call the inverse-square-root degrees are the reference's. -/
theorem dinv_eq
    (h10 : shapeCast S800000 (V (Proc.devRef .tc main_v10)) shapeCasts_S800000x1_S800000 = val_main_v31 (F := F) x0 x1)
    (h7 : V (Proc.devRef .tc main_v7) = val_main_v47 (F := F) x1 x2)
    (h3 : V (Proc.devRef .tc main_v3) = val_main_v3 (F := F) x1) :
    StableHlo.after (hostOps1_1 (F := F)) (StableHlo.after (hostOps1 (F := F)) V) (Proc.devRef .tc main_v27)
      = val_main_v64 (F := F) x0 x1 x2 :=
  (s11_v27 (StableHlo.after (hostOps1 (F := F)) V) _ _ _ (s1_v24 V _ _ _ h10 h7 h3) (s1_v26 V _ _ _ h10 h7 h3) (s1_cst5 V)).trans rfl

/-- and the edge weights are still the reference's. -/
theorem ew_eq
    (h10 : shapeCast S800000 (V (Proc.devRef .tc main_v10)) shapeCasts_S800000x1_S800000 = val_main_v31 (F := F) x0 x1)
    (h7 : V (Proc.devRef .tc main_v7) = val_main_v47 (F := F) x1 x2) :
    StableHlo.after (hostOps1_1 (F := F)) (StableHlo.after (hostOps1 (F := F)) V) (Proc.devRef .tc main_v17)
      = val_main_v53 (F := F) x0 x1 x2 :=
  (k11_v17 _).trans ((s1_v17 V _ _ h10 h7).trans rfl)

end Composed

/-- The normalisation weight of every edge, as a column. -/
theorem v44 (V : Valuation τ sig (Elt F)) (x0 : FVec F S50000x128 .f32) (x1 : IVec S2x800000 32) (x2 : IVec S50000 32)
    (h10 : shapeCast S800000 (V (Proc.devRef .tc main_v10)) shapeCasts_S800000x1_S800000 = val_main_v31 (F := F) x0 x1)
    (h7 : V (Proc.devRef .tc main_v7) = val_main_v47 (F := F) x1 x2)
    (h1 : V (Proc.devRef .tc main_v1) = val_main_v1 (F := F) x1)
    (h3 : V (Proc.devRef .tc main_v3) = val_main_v3 (F := F) x1) :
    run1 V (Proc.devRef .tc main_v44) = val_main_v88 (F := F) x0 x1 x2 := by
  have e1 : StableHlo.after (hostOps1_1 (F := F)) (StableHlo.after (hostOps1 (F := F)) V) (Proc.devRef .tc main_v1) = val_main_v1 (F := F) x1 :=
    (k11_v1 _).trans ((k1_v1 V).trans h1)
  have e3 : StableHlo.after (hostOps1_1 (F := F)) (StableHlo.after (hostOps1 (F := F)) V) (Proc.devRef .tc main_v3) = val_main_v3 (F := F) x1 :=
    (k11_v3 _).trans ((k1_v3 V).trans h3)
  refine (k13_v44 _).trans ((s12_v44 _ _ _ _ _ (dinv_eq V x0 x1 x2 h10 h7 h3) e1 e3 (ew_eq V x0 x1 x2 h10 h7)).trans ?_)
  rw [col_eq]
  rfl

/-- The self-loop weight of every node, as a column. -/
theorem v46 (V : Valuation τ sig (Elt F)) (x0 : FVec F S50000x128 .f32) (x1 : IVec S2x800000 32) (x2 : IVec S50000 32)
    (h10 : shapeCast S800000 (V (Proc.devRef .tc main_v10)) shapeCasts_S800000x1_S800000 = val_main_v31 (F := F) x0 x1)
    (h7 : V (Proc.devRef .tc main_v7) = val_main_v47 (F := F) x1 x2)
    (h1 : V (Proc.devRef .tc main_v1) = val_main_v1 (F := F) x1)
    (h3 : V (Proc.devRef .tc main_v3) = val_main_v3 (F := F) x1) :
    run1 V (Proc.devRef .tc main_v46) = val_main_v95 (F := F) x0 x1 x2 :=
  (k13_v46 _).trans ((s12_v46 _ _ (dinv_eq V x0 x1 x2 h10 h7 h3)).trans rfl)

/-- The first layer's linear map of the features. -/
theorem v47 (V : Valuation τ sig (Elt F)) (x0 : FVec F S50000x128 .f32) (x3 : FVec F S128x128 .f32) (h0 : V (Proc.devRef .tc main_arg0) = x0) (h3' : V (Proc.devRef .tc main_arg3) = x3) :
    run1 V (Proc.devRef .tc main_v47) = val_main_v54 (F := F) x0 x3 :=
  (k13_v47 _).trans ((s12_v47 _ x0 x3 ((k11_arg0 _).trans ((k1_arg0 V).trans h0)) ((k11_arg3 _).trans ((k1_arg3 V).trans h3'))).trans rfl)

/-- Its rows at the source ends. -/
theorem v48 (V : Valuation τ sig (Elt F)) (x0 : FVec F S50000x128 .f32) (x1 : IVec S2x800000 32) (x3 : FVec F S128x128 .f32) (h0 : V (Proc.devRef .tc main_arg0) = x0) (h3' : V (Proc.devRef .tc main_arg3) = x3)
    (h1 : V (Proc.devRef .tc main_v1) = val_main_v1 (F := F) x1) (hs : Small x1) :
    run1 V (Proc.devRef .tc main_v48) = val_main_v87 (F := F) x0 x1 x3 := by
  have e47 : StableHlo.after (hostOps1_2 (F := F)) (StableHlo.after (hostOps1_1 (F := F)) (StableHlo.after (hostOps1 (F := F)) V)) (Proc.devRef .tc main_v47)
      = val_main_v54 (F := F) x0 x3 :=
    (s12_v47 _ x0 x3 ((k11_arg0 _).trans ((k1_arg0 V).trans h0)) ((k11_arg3 _).trans ((k1_arg3 V).trans h3'))).trans rfl
  have e1 : StableHlo.after (hostOps1_2 (F := F)) (StableHlo.after (hostOps1_1 (F := F)) (StableHlo.after (hostOps1 (F := F)) V)) (Proc.devRef .tc main_v1)
      = val_main_v1 (F := F) x1 :=
    (k12_v1 _).trans ((k11_v1 _).trans ((k1_v1 V).trans h1))
  have hs1 : Small (val_main_v1 (F := F) x1) := by
    show Small (shapeCast S800000 (extractStridedSlice S1x800000 ![0, 0] x1 slices_S2x800000_S1x800000_0_0) shapeCasts_S1x800000_S800000)
    exact src_small x1 hs
  exact (s13_v48 _ _ _ e47 e1 hs1).trans rfl

/-! Buffers these stretches do not write. -/
theorem keep_v1 (V : Valuation τ sig (Elt F)) : run1 V (Proc.devRef .tc main_v1) = V (Proc.devRef .tc main_v1) :=
  (k13_v1 _).trans ((k12_v1 _).trans ((k11_v1 _).trans (k1_v1 V)))

theorem keep_v3 (V : Valuation τ sig (Elt F)) : run1 V (Proc.devRef .tc main_v3) = V (Proc.devRef .tc main_v3) :=
  (k13_v3 _).trans ((k12_v3 _).trans ((k11_v3 _).trans (k1_v3 V)))

theorem keep_arg4 (V : Valuation τ sig (Elt F)) : run1 V (Proc.devRef .tc main_arg4) = V (Proc.devRef .tc main_arg4) :=
  (k13_arg4 _).trans ((k12_arg4 _).trans ((k11_arg4 _).trans (k1_arg4 V)))

theorem keep_arg5 (V : Valuation τ sig (Elt F)) : run1 V (Proc.devRef .tc main_arg5) = V (Proc.devRef .tc main_arg5) :=
  (k13_arg5 _).trans ((k12_arg5 _).trans ((k11_arg5 _).trans (k1_arg5 V)))

theorem keep_arg6 (V : Valuation τ sig (Elt F)) : run1 V (Proc.devRef .tc main_arg6) = V (Proc.devRef .tc main_arg6) :=
  (k13_arg6 _).trans ((k12_arg6 _).trans ((k11_arg6 _).trans (k1_arg6 V)))

theorem keep_arg7 (V : Valuation τ sig (Elt F)) : run1 V (Proc.devRef .tc main_arg7) = V (Proc.devRef .tc main_arg7) :=
  (k13_arg7 _).trans ((k12_arg7 _).trans ((k11_arg7 _).trans (k1_arg7 V)))

theorem keep_arg8 (V : Valuation τ sig (Elt F)) : run1 V (Proc.devRef .tc main_arg8) = V (Proc.devRef .tc main_arg8) :=
  (k13_arg8 _).trans ((k12_arg8 _).trans ((k11_arg8 _).trans (k1_arg8 V)))

end Cert.KernelIdeal.KSt1

end
-- ==== Proof.KStage2.lean ====
/-
  The host operations between the second and the third launch (the first layer's aggregation, self-loop term, bias and relu, the second layer's linear map and its rows taken at the source ends): from any contents that hold the reference's stages at the buffers they read, the buffers the later segments read hold the reference's stages.
-/
import proofs.«408912_j5085241279118_3_alg».proof.Proof.Gen.KernelIdeal.Launch
import proofs.«408912_j5085241279118_3_alg».proof.Proof.Gen.ReferenceIdeal.Read
import proofs.«408912_j5085241279118_3_alg».proof.Proof.KTake
import proofs.«408912_j5085241279118_3_alg».proof.Proof.LibTRefCast
import Idealize.ShloMosaic.Lib.StableHlo.Run

set_option maxRecDepth 16384

noncomputable section

namespace Cert.KernelIdeal.KSt2

open Cert.KernelIdeal Cert.KernelIdeal.Gen Cert.KernelIdeal.KTake
open Cert.ReferenceIdeal.Read
open Idealize.ShloMosaic Idealize.ShloMosaic.TcCoe Idealize.SL.Sem Idealize.ShloMosaic.StableHlo

variable {F : FTy → Type} [FloatOps F]
/-- The contents after the four stretches of host operations between the second and the third launch. -/
abbrev run2 (V : Valuation τ sig (Elt F)) : Valuation τ sig (Elt F) :=
  StableHlo.after (hostOps2_3 (F := F)) (StableHlo.after (hostOps2_2 (F := F)) (StableHlo.after (hostOps2_1 (F := F)) (StableHlo.after (hostOps2 (F := F)) (V))))

/-! ## The first stretch: aggregation, self-loop term and bias -/

/-- After the first stretch the pre-activation holds: the messages summed into their destination rows, plus each
    node's own row times its self-loop weight, plus the bias along every row. -/
theorem agg_v58 (V : Valuation τ sig (Elt F)) :
    StableHlo.after (hostOps2 (F := F)) V (Proc.devRef .tc main_v58)
      = addf (addf (Host.scatterAdd scatter_S50000x128_S800000x1_S800000x128_1_0_0_1
              (broadcastInDim S50000x128 ![] bcast_S_S50000x128 (constant S_ .f32 0x00000000#32))
              (broadcastInDim S800000x1 ![0] bcast_S800000_S800000x1_0 (V (Proc.devRef .tc main_v3)))
              (V (Proc.devRef .tc main_v49)))
            (mulf (V (Proc.devRef .tc main_v47)) (broadcastInDim S50000x128 ![0, 1] bcast_S50000x1_S50000x128_0_1 (V (Proc.devRef .tc main_v46)))))
          (broadcastInDim S50000x128 ![0, 1] bcast_S1x128_S50000x128_0_1 (broadcastInDim S1x128 ![1] bcast_S128_S1x128_1 (V (Proc.devRef .tc main_arg4)))) := by
  simp only [hostOps2]; after_results_simp <;> rfl

/-- The first stretch does not write the second layer's weights. -/
theorem agg_keep_arg5 (V : Valuation τ sig (Elt F)) :
    StableHlo.after (hostOps2 (F := F)) V (Proc.devRef .tc main_arg5) = V (Proc.devRef .tc main_arg5) := by
  simp only [hostOps2]; after_results_simp <;> rfl

/-! ## The second stretch: the relu -/

/-- The relu of an array a is the entrywise maximum of a and zero. -/
theorem relu_v59 (V : Valuation τ sig (Elt F)) (a : FVec F S50000x128 .f32)
    (h : V (Proc.devRef .tc main_v58) = a) :
    StableHlo.after (hostOps2_1 (F := F)) V (Proc.devRef .tc main_v59)
      = maximumf a (broadcastInDim S50000x128 ![] bcast_S_S50000x128 (constant S_ .f32 0x00000000#32)) := by
  simp only [hostOps2_1]; after_results_simp
  simp only [Cert.Lib.ofBuf_toBuf]
  have h' : (TRef.of main_v58 (by rfl) (by decide) (by rfl) : TRef sig ⟨S50000x128, .f32⟩).ofBuf (V (Proc.devRef .tc main_v58)) = a := eq_of_heq ((cast_heq _ _).trans (heq_of_eq h))
  simp only [h']
  refine eq_of_heq ((cast_heq _ _).trans (heq_of_eq ?_))
  rfl

/-! ## The third stretch: the second linear map -/

/-- The third stretch multiplies the hidden layer by the second layer's weights. -/
theorem lin_v60 (V : Valuation τ sig (Elt F)) :
    StableHlo.after (hostOps2_2 (F := F)) V (Proc.devRef .tc main_v60)
      = Host.dotGeneral dot_S50000x128_S128x128_S50000x128_1_0_0_1_n_n none (V (Proc.devRef .tc main_v59)) (V (Proc.devRef .tc main_arg5)) := by
  simp only [hostOps2_2]; after_results_simp <;> rfl

/-! ## The fourth stretch: the rows at the source ends -/

/-- Rows of an array a taken at an index vector whose entries all lie in [0, 50000): the wrap of negative indices and
    the out-of-range fill never apply, so the result is the plain gather of a at the wrapped indices. -/
theorem take_v61 (V : Valuation τ sig (Elt F)) (a : FVec F S50000x128 .f32) (idx : IVec S800000 32)
    (h60 : V (Proc.devRef .tc main_v60) = a) (h1 : V (Proc.devRef .tc main_v1) = idx) (hsmall : Small idx) :
    StableHlo.after (hostOps2_3 (F := F)) V (Proc.devRef .tc main_v61)
      = Host.gather gather_S50000x128_S800000x1_S800000x128_1_0_n_n_0_1_1128 a
          (broadcastInDim S800000x1 ![0] bcast_S800000_S800000x1_0
            (select (cmpi .slt idx (broadcastInDim S800000 ![] bcast_S_S800000 (constantI S_ 32 0#32)))
              (addi idx (broadcastInDim S800000 ![] bcast_S_S800000 (constantI S_ 32 50000#32))) idx)) := by
  simp only [hostOps2_3]; after_results_simp
  simp only [Cert.Lib.ofBuf_toBuf]
  have h60' : (TRef.of main_v60 (by rfl) (by decide) (by rfl) : TRef sig ⟨S50000x128, .f32⟩).ofBuf (V (Proc.devRef .tc main_v60)) = a := eq_of_heq ((cast_heq _ _).trans (heq_of_eq h60))
  have h1' : (TRef.of main_v1 (by rfl) (by decide) (by rfl) : TRef sig ⟨S800000, .i32⟩).ofBuf (V (Proc.devRef .tc main_v1)) = idx := eq_of_heq ((cast_heq _ _).trans (heq_of_eq h1))
  simp only [h60', h1']
  refine eq_of_heq ((cast_heq _ _).trans (heq_of_eq ?_))
  rw [KTake.mask_one _ (KTake.small_col _ (KTake.small_wrap _ hsmall)), KTake.select_one_mat]

/-! ## Buffers a stretch leaves alone -/

/-- The first stretch does not write the source-end index row. -/
theorem agg_keep_v1 (V : Valuation τ sig (Elt F)) :
    StableHlo.after (hostOps2 (F := F)) V (Proc.devRef .tc main_v1) = V (Proc.devRef .tc main_v1) := by
  simp only [hostOps2]; after_results_simp <;> rfl

/-- The relu does not write the second layer's weights. -/
theorem relu_keep_arg5 (V : Valuation τ sig (Elt F)) :
    StableHlo.after (hostOps2_1 (F := F)) V (Proc.devRef .tc main_arg5) = V (Proc.devRef .tc main_arg5) := by
  simp only [hostOps2_1]; after_results_simp <;> rfl

/-- The relu does not write the source-end index row. -/
theorem relu_keep_v1 (V : Valuation τ sig (Elt F)) :
    StableHlo.after (hostOps2_1 (F := F)) V (Proc.devRef .tc main_v1) = V (Proc.devRef .tc main_v1) := by
  simp only [hostOps2_1]; after_results_simp <;> rfl

/-- The linear map does not write the source-end index row. -/
theorem lin_keep_v1 (V : Valuation τ sig (Elt F)) :
    StableHlo.after (hostOps2_2 (F := F)) V (Proc.devRef .tc main_v1) = V (Proc.devRef .tc main_v1) := by
  simp only [hostOps2_2]; after_results_simp <;> rfl

/-- Taking rows does not write the array the rows are taken from. -/
theorem take_keep_v60 (V : Valuation τ sig (Elt F)) :
    StableHlo.after (hostOps2_3 (F := F)) V (Proc.devRef .tc main_v60) = V (Proc.devRef .tc main_v60) := by
  simp only [hostOps2_3]; after_results_simp <;> rfl

/-! ## The stretches composed -/

/-- After the first two stretches: the first hidden layer, relu applied. -/
theorem hidden_v59 (V : Valuation τ sig (Elt F)) (x0 : FVec F S50000x128 .f32) (x1 : IVec S2x800000 32) (x2 : IVec S50000 32) (x3 : FVec F S128x128 .f32) (x4 : FVec F S128 .f32)
    (h49 : V (Proc.devRef .tc main_v49) = val_main_v90 (F := F) x0 x1 x2 x3)
    (h3 : V (Proc.devRef .tc main_v3) = val_main_v3 (F := F) x1)
    (h46 : V (Proc.devRef .tc main_v46) = val_main_v95 (F := F) x0 x1 x2)
    (h47 : V (Proc.devRef .tc main_v47) = val_main_v54 (F := F) x0 x3)
    (h4 : V (Proc.devRef .tc main_arg4) = x4) :
    StableHlo.after (hostOps2_1 (F := F)) (StableHlo.after (hostOps2 (F := F)) V) (Proc.devRef .tc main_v59)
      = val_main_v102 (F := F) x0 x1 x2 x3 x4 := by
  refine (relu_v59 _ _ (agg_v58 V)).trans ?_
  rw [h49, h3, h46, h47, h4]
  rfl

/-- After the first three stretches: the second layer's linear map. -/
theorem linear_v60 (V : Valuation τ sig (Elt F)) (x0 : FVec F S50000x128 .f32) (x1 : IVec S2x800000 32) (x2 : IVec S50000 32) (x3 : FVec F S128x128 .f32) (x4 : FVec F S128 .f32) (x5 : FVec F S128x128 .f32)
    (h49 : V (Proc.devRef .tc main_v49) = val_main_v90 (F := F) x0 x1 x2 x3)
    (h3 : V (Proc.devRef .tc main_v3) = val_main_v3 (F := F) x1)
    (h46 : V (Proc.devRef .tc main_v46) = val_main_v95 (F := F) x0 x1 x2)
    (h47 : V (Proc.devRef .tc main_v47) = val_main_v54 (F := F) x0 x3)
    (h4 : V (Proc.devRef .tc main_arg4) = x4)
    (h5 : V (Proc.devRef .tc main_arg5) = x5) :
    StableHlo.after (hostOps2_2 (F := F)) (StableHlo.after (hostOps2_1 (F := F)) (StableHlo.after (hostOps2 (F := F)) V)) (Proc.devRef .tc main_v60)
      = val_main_v103 (F := F) x0 x1 x2 x3 x4 x5 := by
  refine (lin_v60 _).trans ?_
  rw [hidden_v59 V x0 x1 x2 x3 x4 h49 h3 h46 h47 h4, relu_keep_arg5, agg_keep_arg5, h5]
  rfl

/-- The second layer's linear map of the first hidden layer. -/
theorem v60 (V : Valuation τ sig (Elt F)) (x0 : FVec F S50000x128 .f32) (x1 : IVec S2x800000 32) (x2 : IVec S50000 32) (x3 : FVec F S128x128 .f32) (x4 : FVec F S128 .f32) (x5 : FVec F S128x128 .f32)
    (h49 : V (Proc.devRef .tc main_v49) = val_main_v90 (F := F) x0 x1 x2 x3)
    (h3 : V (Proc.devRef .tc main_v3) = val_main_v3 (F := F) x1)
    (h46 : V (Proc.devRef .tc main_v46) = val_main_v95 (F := F) x0 x1 x2)
    (h47 : V (Proc.devRef .tc main_v47) = val_main_v54 (F := F) x0 x3)
    (h4 : V (Proc.devRef .tc main_arg4) = x4)
    (h5 : V (Proc.devRef .tc main_arg5) = x5) :
    run2 V (Proc.devRef .tc main_v60) = val_main_v103 (F := F) x0 x1 x2 x3 x4 x5 :=
  (take_keep_v60 _).trans (linear_v60 V x0 x1 x2 x3 x4 x5 h49 h3 h46 h47 h4 h5)

/-- Its rows at the source ends. -/
theorem v61 (V : Valuation τ sig (Elt F)) (x0 : FVec F S50000x128 .f32) (x1 : IVec S2x800000 32) (x2 : IVec S50000 32) (x3 : FVec F S128x128 .f32) (x4 : FVec F S128 .f32) (x5 : FVec F S128x128 .f32)
    (h49 : V (Proc.devRef .tc main_v49) = val_main_v90 (F := F) x0 x1 x2 x3)
    (h3 : V (Proc.devRef .tc main_v3) = val_main_v3 (F := F) x1)
    (h46 : V (Proc.devRef .tc main_v46) = val_main_v95 (F := F) x0 x1 x2)
    (h47 : V (Proc.devRef .tc main_v47) = val_main_v54 (F := F) x0 x3)
    (h4 : V (Proc.devRef .tc main_arg4) = x4)
    (h5 : V (Proc.devRef .tc main_arg5) = x5)
    (h1 : V (Proc.devRef .tc main_v1) = val_main_v1 (F := F) x1) (hs : Small x1) :
    run2 V (Proc.devRef .tc main_v61) = val_main_v136 (F := F) x0 x1 x2 x3 x4 x5 := by
  have hv1 : StableHlo.after (hostOps2_2 (F := F)) (StableHlo.after (hostOps2_1 (F := F)) (StableHlo.after (hostOps2 (F := F)) V)) (Proc.devRef .tc main_v1)
      = val_main_v1 (F := F) x1 := by
    rw [lin_keep_v1, relu_keep_v1, agg_keep_v1, h1]
  have hsmall : Small (val_main_v1 (F := F) x1) := by
    show Small (shapeCast S800000 (extractStridedSlice S1x800000 ![0, 0] x1 slices_S2x800000_S1x800000_0_0) shapeCasts_S1x800000_S800000)
    exact src_small x1 hs
  refine (take_v61 _ _ _ (linear_v60 V x0 x1 x2 x3 x4 x5 h49 h3 h46 h47 h4 h5) hv1 hsmall).trans ?_
  rfl

/-! Buffers these stretches do not write. -/
theorem keep_v3 (V : Valuation τ sig (Elt F)) : run2 V (Proc.devRef .tc main_v3) = V (Proc.devRef .tc main_v3) := by
  simp only [run2, hostOps2_3, hostOps2_2, hostOps2_1, hostOps2]; after_results_simp <;> rfl

theorem keep_v44 (V : Valuation τ sig (Elt F)) : run2 V (Proc.devRef .tc main_v44) = V (Proc.devRef .tc main_v44) := by
  simp only [run2, hostOps2_3, hostOps2_2, hostOps2_1, hostOps2]; after_results_simp <;> rfl

theorem keep_v46 (V : Valuation τ sig (Elt F)) : run2 V (Proc.devRef .tc main_v46) = V (Proc.devRef .tc main_v46) := by
  simp only [run2, hostOps2_3, hostOps2_2, hostOps2_1, hostOps2]; after_results_simp <;> rfl

theorem keep_arg6 (V : Valuation τ sig (Elt F)) : run2 V (Proc.devRef .tc main_arg6) = V (Proc.devRef .tc main_arg6) := by
  simp only [run2, hostOps2_3, hostOps2_2, hostOps2_1, hostOps2]; after_results_simp <;> rfl

theorem keep_arg7 (V : Valuation τ sig (Elt F)) : run2 V (Proc.devRef .tc main_arg7) = V (Proc.devRef .tc main_arg7) := by
  simp only [run2, hostOps2_3, hostOps2_2, hostOps2_1, hostOps2]; after_results_simp <;> rfl

theorem keep_arg8 (V : Valuation τ sig (Elt F)) : run2 V (Proc.devRef .tc main_arg8) = V (Proc.devRef .tc main_arg8) := by
  simp only [run2, hostOps2_3, hostOps2_2, hostOps2_1, hostOps2]; after_results_simp <;> rfl

end Cert.KernelIdeal.KSt2

end
-- ==== Proof.KStage3.lean ====
/-
  The last stretch of host operations of the kernel's program (the second layer's aggregation, self-loop term, bias, relu, and the classifier): from any contents that hold the reference's stages at the buffers it reads, its two results are the reference's two result stages.
-/
import proofs.«408912_j5085241279118_3_alg».proof.Proof.Gen.KernelIdeal.Launch
import proofs.«408912_j5085241279118_3_alg».proof.Proof.Gen.ReferenceIdeal.Read
import proofs.«408912_j5085241279118_3_alg».proof.Proof.KTake
import proofs.«408912_j5085241279118_3_alg».proof.Proof.LibTRefCast
import Idealize.ShloMosaic.Lib.StableHlo.Run

set_option maxRecDepth 16384

noncomputable section

namespace Cert.KernelIdeal.KSt3

open Cert.KernelIdeal Cert.KernelIdeal.Gen Cert.KernelIdeal.KTake
open Cert.ReferenceIdeal.Read
open Idealize.ShloMosaic Idealize.ShloMosaic.TcCoe Idealize.SL.Sem Idealize.ShloMosaic.StableHlo

variable {F : FTy → Type} [FloatOps F]
/-- The contents after the last three stretches of host operations. -/
abbrev run3 (V : Valuation τ sig (Elt F)) : Valuation τ sig (Elt F) :=
  StableHlo.after (hostOps3_2 (F := F)) (StableHlo.after (hostOps3_1 (F := F)) (StableHlo.after (hostOps3 (F := F)) (V)))

/-- The second hidden layer. -/
theorem v72 (V : Valuation τ sig (Elt F)) (x0 : FVec F S50000x128 .f32) (x1 : IVec S2x800000 32) (x2 : IVec S50000 32) (x3 : FVec F S128x128 .f32) (x4 : FVec F S128 .f32) (x5 : FVec F S128x128 .f32) (x6 : FVec F S128 .f32)
    (h3 : V (Proc.devRef .tc main_v3) = val_main_v3 (F := F) x1)
    (h62 : V (Proc.devRef .tc main_v62) = val_main_v139 (F := F) x0 x1 x2 x3 x4 x5)
    (h60 : V (Proc.devRef .tc main_v60) = val_main_v103 (F := F) x0 x1 x2 x3 x4 x5)
    (h46 : V (Proc.devRef .tc main_v46) = val_main_v95 (F := F) x0 x1 x2)
    (h6 : V (Proc.devRef .tc main_arg6) = x6) :
    run3 V (Proc.devRef .tc main_v72) = val_main_v151 (F := F) x0 x1 x2 x3 x4 x5 x6 := by
  simp only [run3, hostOps3, hostOps3_1, hostOps3_2]
  after_results_simp
  rw [h3, h62, h60, h46, h6]
  rfl

/-- The classifier output. -/
theorem v76 (V : Valuation τ sig (Elt F)) (x0 : FVec F S50000x128 .f32) (x1 : IVec S2x800000 32) (x2 : IVec S50000 32) (x3 : FVec F S128x128 .f32) (x4 : FVec F S128 .f32) (x5 : FVec F S128x128 .f32) (x6 : FVec F S128 .f32) (x7 : FVec F S128x1 .f32) (x8 : FVec F S1 .f32)
    (h3 : V (Proc.devRef .tc main_v3) = val_main_v3 (F := F) x1)
    (h62 : V (Proc.devRef .tc main_v62) = val_main_v139 (F := F) x0 x1 x2 x3 x4 x5)
    (h60 : V (Proc.devRef .tc main_v60) = val_main_v103 (F := F) x0 x1 x2 x3 x4 x5)
    (h46 : V (Proc.devRef .tc main_v46) = val_main_v95 (F := F) x0 x1 x2)
    (h6 : V (Proc.devRef .tc main_arg6) = x6)
    (h7 : V (Proc.devRef .tc main_arg7) = x7)
    (h8 : V (Proc.devRef .tc main_arg8) = x8) :
    run3 V (Proc.devRef .tc main_v76) = val_main_v155 (F := F) x0 x1 x2 x3 x4 x5 x6 x7 x8 := by
  simp only [run3, hostOps3, hostOps3_1, hostOps3_2]
  after_results_simp
  rw [h3, h62, h60, h46, h6, h7, h8]
  rfl

end Cert.KernelIdeal.KSt3

end
-- ==== Proof.CosSim.lean ====
/-
  The per-edge cosine similarity as ONE function of two row-gathered feature arrays, on the extended reals: for edge
  `e`, the dot product of row `e` of the two arrays over the product of the two row norms, each norm clamped from
  below by the literal 0x322BCC77 (the f32 nearest 1e-8). Both programs compute this number for every edge; the
  modules that read the kernel's blocks and the reference's stages meet at this definition.
-/
import Idealize.ShloMosaic.PureOps.Ideal
import Idealize.ShloMosaic.Lib.ValueIdx

noncomputable section

namespace Cert.Proof.CosSim

open Idealize.ShloMosaic

/-- Edge-major feature rows: one row of 128 features per edge. -/
abbrev SE128 : Shape := ⟨2, ![800000, 128]⟩

/-- The dot product of row `e` of `a` with row `e` of `b`. -/
def rowDot (a b : SE128.Idx → EReal) (e : Fin 800000) : EReal :=
  ∑ k : Fin 128, a (ValueIdx.ix2 e k) * b (ValueIdx.ix2 e k)

/-- The lower clamp of a row norm: the f32 word nearest 1e-8, read exactly. -/
def normFloor : EReal := Ideal.ofBits .f32 0x322BCC77#32

/-- The clamped Euclidean norm of row `e` of `a`. -/
def rowNorm (a : SE128.Idx → EReal) (e : Fin 800000) : EReal :=
  max (Ideal.sqrt (rowDot a a e)) normFloor

/-- Cosine similarity of row `e` of `a` and row `e` of `b`: dot over the product of the clamped norms. -/
def cosSim (a b : SE128.Idx → EReal) (e : Fin 800000) : EReal :=
  Ideal.div (rowDot a b e) (rowNorm a e * rowNorm b e)

end Cert.Proof.CosSim

end
-- ==== Proof.KRegion0.lean ====
/-
  The cosine-similarity launch, read at its output column.

  The launch walks a grid of 80 points. At point t it holds rows 10000·t … 10000·t + 9999 of two 800000 × 128 arrays
  a and b, and writes rows 10000·t … 10000·t + 9999 of an 800000 × 1 column. For a row r of the blocks it writes
      dot / (na · nb),   dot = Σ_k a[r,k]·b[r,k],   na = max(√(Σ_k a[r,k]²), floor),   nb = max(√(Σ_k b[r,k]²), floor),
  with floor the f32 word 0x322BCC77 read exactly. On the extended reals this is, entry by entry, the function
  `cosSim a b` of the row: the three lane sums are sums over the 128 columns of that row, the block's row r at point t is
  row 10000·t + r of the arrays, and every row e of the column lies in the block of exactly the point e / 10000. Hence
  after the launch the whole column is e ↦ cosSim a b e.
-/
import proofs.«408912_j5085241279118_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«408912_j5085241279118_3_alg».proof.Proof.CosSim

set_option maxRecDepth 16384

noncomputable section

namespace Cert.KernelIdeal.KReg0

open Cert.KernelIdeal Cert.KernelIdeal.Gen
open Idealize.ShloMosaic Idealize.ShloMosaic.TcCoe Idealize.SL.Sem
open Idealize.ShloMosaic.Pipeline (Dat)

open Cert.Proof.CosSim

/-! ## One entry of what a point computes, over any two blocks -/

/-- The lane sum of a 10000 × 128 block kept as a 10000 × 1 column: entry (r, 0) is the sum over the 128 columns of
    row r of the block (the length-10000 vector of sums and its column form share the row-major position r). -/
theorem rowSum_column_apply (v : FVec Ideal S10000x128 .f32) (r : Fin 10000) (z : Fin 1) :
    shapeCast S10000x1 (multiReduction (F := Ideal) .add [1] S10000 v 0x00000000#32 reduces_S10000x128_S10000 (.inl rfl) rfl)
        shapeCasts_S10000_S10000x1 (ValueIdx.ix2 r z)
      = ∑ k : Fin 128, v (ValueIdx.ix2 r k) := by
  have hz : z.val = 0 := by have := z.isLt; omega
  refine (shapeCast_apply _ shapeCasts_S10000_S10000x1 (ValueIdx.ix2 r z) (ValueIdx.ix1 r) ?_).trans ?_
  · rw [Shape.rowMajor_val_one, Shape.rowMajor_val_two]
    show r.val = r.val * 1 + z.val
    omega
  · refine (Ideal.multiReduction_add_single v _ reduces_S10000x128_S10000 _ _ (ValueIdx.ix1 r)).trans ?_
    refine Finset.sum_congr rfl fun k _ => congrArg v ?_
    funext a
    match a with
    | ⟨0, _⟩ => rfl
    | ⟨1, _⟩ => rfl

/-- Entry (r, 0) of the stored block, from the two loaded blocks: the dot product of their rows r over the product of
    the two row norms, each the square root of the row's sum of squares clamped below by the literal. -/
theorem stored_apply (x0 x1 : Vec Ideal S10000x128 .f32) (r : Fin 10000) (z : Fin 1) :
    k0_pay1 (F := Ideal) x0 x1 (ValueIdx.ix2 r z)
      = Ideal.div (∑ k : Fin 128, x0 (ValueIdx.ix2 r k) * x1 (ValueIdx.ix2 r k))
          (max (Ideal.sqrt (∑ k : Fin 128, x0 (ValueIdx.ix2 r k) * x0 (ValueIdx.ix2 r k))) (Ideal.ofBits .f32 0x322BCC77#32)
            * max (Ideal.sqrt (∑ k : Fin 128, x1 (ValueIdx.ix2 r k) * x1 (ValueIdx.ix2 r k))) (Ideal.ofBits .f32 0x322BCC77#32)) := by
  unfold k0_pay1
  simp only [shapeCast_self]
  show Ideal.div (shapeCast S10000x1 (multiReduction (F := Ideal) .add [1] S10000 (mulf x0 x1) 0x00000000#32 reduces_S10000x128_S10000 (.inl rfl) rfl) shapeCasts_S10000_S10000x1 (ValueIdx.ix2 r z))
      (max (Ideal.sqrt (shapeCast S10000x1 (multiReduction (F := Ideal) .add [1] S10000 (mulf x0 x0) 0x00000000#32 reduces_S10000x128_S10000 (.inl rfl) rfl) shapeCasts_S10000_S10000x1 (ValueIdx.ix2 r z))) (Ideal.ofBits .f32 0x322BCC77#32)
        * max (Ideal.sqrt (shapeCast S10000x1 (multiReduction (F := Ideal) .add [1] S10000 (mulf x1 x1) 0x00000000#32 reduces_S10000x128_S10000 (.inl rfl) rfl) shapeCasts_S10000_S10000x1 (ValueIdx.ix2 r z))) (Ideal.ofBits .f32 0x322BCC77#32)) = _
  rw [rowSum_column_apply, rowSum_column_apply, rowSum_column_apply]
  rfl

/-- When row r of the two blocks is row e of two arrays a and b, entry (r, 0) of the stored block is the cosine
    similarity of row e of a and b. -/
theorem stored_eq_cosSim (x0 x1 : Vec Ideal S10000x128 .f32) (a b : S800000x128.Idx → EReal) (r : Fin 10000) (z : Fin 1)
    (e : Fin 800000) (h0 : ∀ k : Fin 128, x0 (ValueIdx.ix2 r k) = a (ValueIdx.ix2 e k))
    (h1 : ∀ k : Fin 128, x1 (ValueIdx.ix2 r k) = b (ValueIdx.ix2 e k)) :
    k0_pay1 (F := Ideal) x0 x1 (ValueIdx.ix2 r z) = cosSim a b e := by
  rw [stored_apply]
  unfold cosSim rowNorm rowDot normFloor
  simp only [h0, h1]

/-! ## Where the blocks of a point sit in the arrays -/

/-- The zero offsets, as the constant function. -/
theorem offsets_zero : (![0, 0] : Fin 2 → Nat) = fun _ => 0 := funext fun a => by fin_cases a <;> rfl

/-- The three index maps over the grid: at point t every window is at block row t, block column 0. -/
theorem block_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- Entry y of the first input's block at point t is entry (10000·t + y₀, y₁) of the first array. -/
theorem first_block_apply (c : Dev nD) (t : Fin cfg0.N) (y : S10000x128.Idx) (i : S800000x128.Idx)
    (h0 : (i 0).val = t.val * 10000 + (y 0).val) (h1 : (i 1).val = (y 1).val) :
    iblk0 V c 0 t y = (V c main_v8 : S800000x128.Idx → EReal) i := by
  obtain ⟨e0, e1, -⟩ := block_index t
  show V c main_v8 (((cfg0.win 0).blk t).view.emb y) = V c main_v8 i
  refine congrArg _ (funext fun a => Fin.ext ?_)
  match a with
  | ⟨0, _⟩ => show win0_0.index t (0 : Fin 2) * 10000 + 1 * (y 0).val = (i 0).val; omega
  | ⟨1, _⟩ => show win0_0.index t (1 : Fin 2) * 128 + 1 * (y 1).val = (i 1).val; omega

/-- Entry y of the second input's block at point t is entry (10000·t + y₀, y₁) of the second array. -/
theorem second_block_apply (c : Dev nD) (t : Fin cfg0.N) (y : S10000x128.Idx) (i : S800000x128.Idx)
    (h0 : (i 0).val = t.val * 10000 + (y 0).val) (h1 : (i 1).val = (y 1).val) :
    iblk0 V c 1 t y = (V c main_v9 : S800000x128.Idx → EReal) i := by
  obtain ⟨-, -, e0, e1, -⟩ := block_index t
  show V c main_v9 (((cfg0.win 1).blk t).view.emb y) = V c main_v9 i
  refine congrArg _ (funext fun a => Fin.ext ?_)
  match a with
  | ⟨0, _⟩ => show win0_1.index t (0 : Fin 2) * 10000 + 1 * (y 0).val = (i 0).val; omega
  | ⟨1, _⟩ => show win0_1.index t (1 : Fin 2) * 128 + 1 * (y 1).val = (i 1).val; omega

/-- Row j₀ of the output's block at point t is row 10000·t + j₀ of the column. -/
theorem out_block_row (t : Fin cfg0.N) (j : S10000x1.Idx) :
    ((((cfg0.win 2).blk t).view.emb j) 0).val = t.val * 10000 + (j 0).val := by
  obtain ⟨-, -, -, -, e0, e1⟩ := block_index t
  show win0_2.index t (0 : Fin 2) * 10000 + 1 * (j 0).val = _
  omega

/-! ## What a point writes back, and the column after the launch -/

/-- What point t writes back is block t of the column e ↦ cosSim a b e, a and b the two arrays as the launch finds
    them: the block's row r is computed from rows r of the input blocks, which are rows 10000·t + r of a and b. -/
theorem written_back_eq (c : Dev nD) (t : Fin cfg0.N) :
    (dat0 (F := Ideal) V c).flushed 2 t = ((cfg0.win 2).blk t).view.read (Elt Ideal)
      (fun i : S800000x1.Idx => cosSim (V c main_v8 : S800000x128.Idx → EReal) (V c main_v9 : S800000x128.Idx → EReal) (i 0)) := by
  show (cfg0.win 2).cut (grid0.coords t) ((dat0 V c).after 2 t) = _
  rw [after0_2]
  unfold out0_2
  rw [View.canon_unit_zero offsets_zero]
  simp only [View.ld_unit_zero (S := S10000x128) offsets_zero]
  funext j
  show k0_pay1 (F := Ideal) (iblk0 V c 0 t) (iblk0 V c 1 t) j
    = cosSim (V c main_v8 : S800000x128.Idx → EReal) (V c main_v9 : S800000x128.Idx → EReal) ((((cfg0.win 2).blk t).view.emb j) 0)
  have he := out_block_row t j
  generalize ((((cfg0.win 2).blk t).view.emb j) 0) = e at he
  obtain ⟨r, z, rfl⟩ : ∃ (r : Fin 10000) (z : Fin 1), j = ValueIdx.ix2 r z := ⟨j 0, j 1, ValueIdx.eq_ix2 j⟩
  exact stored_eq_cosSim _ _ _ _ r z e (fun k => first_block_apply V c t _ _ he rfl) (fun k => second_block_apply V c t _ _ he rfl)

/-- An entry of the column is in point t's block iff each coordinate is in the block's range on its axis. -/
theorem mem_out_block (t : Fin cfg0.N) (i : S800000x1.Idx) :
    i ∈ ((cfg0.win 2).blk t).view.set ↔ ∀ a : Fin 2, win0_2.index t a * S10000x1.size a ≤ (i a).val ∧ (i a).val < win0_2.index t a * S10000x1.size a + S10000x1.size a := by
  show i ∈ ((View.whole main_v10).slice (win0_2.rect t)).set ↔ _
  rw [View.set_slice_whole, Rect.mem_set_unit]
  exact Iff.rfl

/-- Every entry (e, 0) of the column is in the block of the point e / 10000, which writes its block back. -/
theorem out_blocks_cover (i : S800000x1.Idx) :
    ∃ t : Fin cfg0.N, (cfg0.win 2).flush t = true ∧ i ∈ ((cfg0.win 2).blk t).view.set := by
  have hi0 : (i 0).val < 800000 := (i 0).isLt
  have hi1 : (i 1).val < 1 := (i 1).isLt
  have hN : (i 0).val / 10000 < grid0.N := by rw [N_0]; omega
  obtain ⟨-, -, -, -, e0, e1⟩ := block_index ⟨(i 0).val / 10000, hN⟩
  refine ⟨⟨(i 0).val / 10000, hN⟩, flush0_2 _, ?_⟩
  rw [mem_out_block]
  intro a
  match a with
  | ⟨0, _⟩ =>
    show win0_2.index ⟨(i 0).val / 10000, hN⟩ (0 : Fin 2) * 10000 ≤ (i 0).val ∧ (i 0).val < win0_2.index ⟨(i 0).val / 10000, hN⟩ (0 : Fin 2) * 10000 + 10000
    rw [e0]
    show (i 0).val / 10000 * 10000 ≤ (i 0).val ∧ (i 0).val < (i 0).val / 10000 * 10000 + 10000
    omega
  | ⟨1, _⟩ =>
    show win0_2.index ⟨(i 0).val / 10000, hN⟩ (1 : Fin 2) * 1 ≤ (i 1).val ∧ (i 1).val < win0_2.index ⟨(i 0).val / 10000, hN⟩ (1 : Fin 2) * 1 + 1
    rw [e1]
    omega

/-- After the launch, entry (e, 0) of the output column is the cosine similarity of row `e` of the two input arrays. -/
theorem arr0 (c : Dev nD) :
    (dat0 (F := Ideal) V c).arrAt 2 cfg0.N
      = (fun i : S800000x1.Idx => cosSim (V c main_v8 : S800000x128.Idx → EReal) (V c main_v9 : S800000x128.Idx → EReal) (i 0)) :=
  (dat0 (F := Ideal) V c).arrAt_eq_of_cover 2 _ (fun t _ => written_back_eq V c t) out_blocks_cover

end Cert.KernelIdeal.KReg0

end
-- ==== Proof.KRegion1.lean ====
/-
  The first message-scaling launch, read as one array. The launch walks 80 consecutive row blocks of 10000 rows; at
  block t it takes rows 10000·t … 10000·t + 9999 of an [800000, 128] array x and of an [800000, 1] column w, and
  writes the same rows of the output as the product x[r, l] · w[r, 0], the column entry of a row repeated along the
  128 lanes. The 80 blocks are disjoint and together hold every row (row r lies in block r / 10000), so after the
  launch the whole output array is out[r, l] = x[r, l] · w[r, 0].

  Steps: the three block index maps send point t to block (t, 0); the body's value at an entry of a block is the product
  of the two loaded entries (the identity reshapes drop out, the lane broadcast reads column 0 of the same row); a block
  entry (p, q) of point t is array entry (10000·t + p, q); hence what point t writes back is block t of the product
  array; the blocks cover the array; so the array is the product array.
-/
import proofs.«408912_j5085241279118_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KReg1

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The one column entry of row `i 0`: where a per-row weight kept as an [800000, 1] column is read for entry `i` of an
    [800000, 128] array. -/
def col (i : S800000x128.Idx) : S800000x1.Idx := ValueIdx.ix2 (i 0) ⟨0, Nat.one_pos⟩

/-- The zero offset of a whole-block access, as a constant function. -/
theorem hz : (![0, 0] : Fin 2 → Nat) = fun _ => 0 := funext fun a => by fin_cases a <;> rfl

/-- The three block index maps over the 80 grid points: point `t` works on block row `t`, block column `0`, of each of
    its three arrays. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The body's stored value at entry `j` of its block: the first loaded block's entry `j` times the second loaded
    block's entry `k`, for any `k` in the same row as `j` and in column 0. The two reshapes are to the same shape and
    are the identity; the broadcast from [10000, 1] to [10000, 128] reads row `j 0`, column 0; the product is
    entry by entry. -/
theorem pay_apply (x0 : Vec F S10000x128 .f32) (x1 : Vec F S10000x1 .f32) (j : S10000x128.Idx) (k : S10000x1.Idx)
    (hk0 : (k 0).val = (j 0).val) (hk1 : (k 1).val = 0) :
    k1_pay1 x0 x1 j = FloatOps.mulf (x0 j) (x1 k) := by
  unfold k1_pay1
  rw [shapeCast_self, shapeCast_self]
  show FloatOps.mulf (x0 j) (broadcastTo S10000x128 x1 broadcasts_S10000x1_S10000x128 j) = _
  refine congrArg (FloatOps.mulf (x0 j)) ?_
  refine broadcastTo_apply x1 _ j k ?_
  intro a
  match a with
  | ⟨0, _⟩ => exact hk0
  | ⟨1, _⟩ => exact hk1

/-- The body's stored value at entry `j` of point `t`'s block, in terms of the arrays: with `i` the array index of
    entry `j` of the output's block `t` (row `10000·t + j 0`, lane `j 1`), it is `x i · w (col i)`. Both input blocks
    sit at block row `t` like the output's, so entry `j` of the first is `x i` and entry `(j 0, 0)` of the second is
    `w (col i)`. -/
theorem blk_entry (c : Dev nD) (t : Fin cfg1.N) (j : S10000x128.Idx) :
    k1_pay1 (iblk1 V c 0 t) (iblk1 V c 1 t) j
      = FloatOps.mulf ((V c main_v48 : S800000x128.Idx → Elt F .f32) (((cfg1.win 2).blk t).view.emb j))
          ((V c main_v44 : S800000x1.Idx → Elt F .f32) (col (((cfg1.win 2).blk t).view.emb j))) := by
  rw [pay_apply _ _ j (ValueIdx.ix2 (j 0) ⟨0, Nat.one_pos⟩) rfl rfl]
  obtain ⟨e0, e1, e2, e3, e4, e5⟩ := idx_facts t
  have hj0 : (j 0).val < 10000 := (j 0).isLt
  have hj1 : (j 1).val < 128 := (j 1).isLt
  have h0 : iblk1 V c 0 t j = (V c main_v48 : S800000x128.Idx → Elt F .f32) (((cfg1.win 2).blk t).view.emb j) := by
    show (V c main_v48 : S800000x128.Idx → Elt F .f32) (((cfg1.win 0).blk t).view.emb j) = _
    refine congrArg (V c main_v48 : S800000x128.Idx → Elt F .f32) ?_
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * (j 1).val = win1_2.index t (1 : Fin 2) * 128 + 1 * (j 1).val; omega
  have h1 : iblk1 V c 1 t (ValueIdx.ix2 (j 0) ⟨0, Nat.one_pos⟩) = (V c main_v44 : S800000x1.Idx → Elt F .f32) (col (((cfg1.win 2).blk t).view.emb j)) := by
    show (V c main_v44 : S800000x1.Idx → Elt F .f32) (((cfg1.win 1).blk t).view.emb (ValueIdx.ix2 (j 0) ⟨0, Nat.one_pos⟩)) = _
    refine congrArg (V c main_v44 : S800000x1.Idx → Elt F .f32) ?_
    funext a; apply Fin.ext
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 1 + 1 * 0 = 0; omega
  rw [h0, h1]

/-- What point `t` writes back to the output array is block `t` of the product array `i ↦ x i · w (col i)`. -/
theorem flushed_eq (c : Dev nD) (t : Fin cfg1.N) :
    (dat1 V c).flushed 2 t = ((cfg1.win 2).blk t).view.read (Elt F)
      (fun i : S800000x128.Idx => FloatOps.mulf ((V c main_v48 : S800000x128.Idx → Elt F .f32) i) ((V c main_v44 : S800000x1.Idx → Elt F .f32) (col i))) := by
  show (cfg1.win 2).cut (grid1.coords t) ((dat1 V c).after 2 t) = _
  rw [after1_2]
  unfold out1_2
  rw [View.canon_unit_zero hz]
  simp only [View.ld_unit_zero (S := S10000x128) hz, View.ld_unit_zero (S := S10000x1) hz]
  funext j
  exact blk_entry V c t j

/-- An index of the output array lies in point `t`'s block iff on each axis its coordinate is within the block's
    range: from block index × block extent, for one block extent. -/
theorem mem_blk (t : Fin cfg1.N) (i : S800000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v49).slice (win1_2.rect t)).set ↔ _
  rw [View.set_slice_whole, Rect.mem_set_unit]
  exact Iff.rfl

/-- Every index of the output array is written back by some point: row `r` lies in the block of point `r / 10000`,
    which is below 80 since `r < 800000`; the lane axis is one block wide. -/
theorem covered (i : S800000x128.Idx) :
    ∃ t : Fin cfg1.N, (cfg1.win 2).flush t = true ∧ i ∈ ((cfg1.win 2).blk t).view.set := by
  have hi0 : (i 0).val < 800000 := (i 0).isLt
  have hi1 : (i 1).val < 128 := (i 1).isLt
  have hN : (i 0).val / 10000 < cfg1.N := by show _ < grid1.N; rw [N_1]; omega
  obtain ⟨e0, e1, e2, e3, e4, e5⟩ := idx_facts ⟨(i 0).val / 10000, hN⟩
  refine ⟨⟨(i 0).val / 10000, hN⟩, flush1_2 _, ?_⟩
  rw [mem_blk]
  intro a
  match a with
  | ⟨0, _⟩ =>
    show win1_2.index ⟨(i 0).val / 10000, hN⟩ (0 : Fin 2) * 10000 ≤ (i 0).val ∧ (i 0).val < win1_2.index ⟨(i 0).val / 10000, hN⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, hN⟩ (1 : Fin 2) * 128 ≤ (i 1).val ∧ (i 1).val < win1_2.index ⟨(i 0).val / 10000, hN⟩ (1 : Fin 2) * 128 + 128
    rw [e5]; omega

/-- After the launch, the output array is, entry by entry, the first input array's entry times the second input
    column's entry of the same row: each point writes back its block of that product array, and the blocks cover
    the array. -/
theorem arr1 (c : Dev nD) :
    (dat1 V c).arrAt 2 cfg1.N
      = (fun i : S800000x128.Idx => FloatOps.mulf ((V c main_v48 : S800000x128.Idx → Elt F .f32) i) ((V c main_v44 : S800000x1.Idx → Elt F .f32) (col i))) :=
  (dat1 V c).arrAt_eq_of_cover 2 _ (fun t _ => flushed_eq V c t) covered

end Cert.KernelIdeal.KReg1

end
-- ==== Proof.KRegion2.lean ====
/-
  The second message-scaling launch, read as one array. The launch walks 80 consecutive row blocks of 10000 rows; at
  block t it takes rows 10000·t … 10000·t + 9999 of an [800000, 128] array x and of an [800000, 1] column w, and
  writes the same rows of the output as the product x[r, l] · w[r, 0], the column entry of a row repeated along the
  128 lanes. The 80 blocks are disjoint and together hold every row (row r lies in block r / 10000), so after the
  launch the whole output array is out[r, l] = x[r, l] · w[r, 0].

  Steps: the three block index maps send point t to block (t, 0); the body's value at an entry of a block is the product
  of the two loaded entries (the identity reshapes drop out, the lane broadcast reads column 0 of the same row); a block
  entry (p, q) of point t is array entry (10000·t + p, q); hence what point t writes back is block t of the product
  array; the blocks cover the array; so the array is the product array.
-/
import proofs.«408912_j5085241279118_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KReg2

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The one column entry of row `i 0`: where a per-row weight kept as an [800000, 1] column is read for entry `i` of an
    [800000, 128] array. -/
def col (i : S800000x128.Idx) : S800000x1.Idx := ValueIdx.ix2 (i 0) ⟨0, Nat.one_pos⟩

/-- The zero offset of a whole-block access, as a constant function. -/
theorem hz : (![0, 0] : Fin 2 → Nat) = fun _ => 0 := funext fun a => by fin_cases a <;> rfl

/-- The three block index maps over the 80 grid points: point `t` works on block row `t`, block column `0`, of each of
    its three arrays. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- The body's stored value at entry `j` of its block: the first loaded block's entry `j` times the second loaded
    block's entry `k`, for any `k` in the same row as `j` and in column 0. The two reshapes are to the same shape and
    are the identity; the broadcast from [10000, 1] to [10000, 128] reads row `j 0`, column 0; the product is
    entry by entry. -/
theorem pay_apply (x0 : Vec F S10000x128 .f32) (x1 : Vec F S10000x1 .f32) (j : S10000x128.Idx) (k : S10000x1.Idx)
    (hk0 : (k 0).val = (j 0).val) (hk1 : (k 1).val = 0) :
    k2_pay1 x0 x1 j = FloatOps.mulf (x0 j) (x1 k) := by
  unfold k2_pay1
  rw [shapeCast_self, shapeCast_self]
  show FloatOps.mulf (x0 j) (broadcastTo S10000x128 x1 broadcasts_S10000x1_S10000x128 j) = _
  refine congrArg (FloatOps.mulf (x0 j)) ?_
  refine broadcastTo_apply x1 _ j k ?_
  intro a
  match a with
  | ⟨0, _⟩ => exact hk0
  | ⟨1, _⟩ => exact hk1

/-- The body's stored value at entry `j` of point `t`'s block, in terms of the arrays: with `i` the array index of
    entry `j` of the output's block `t` (row `10000·t + j 0`, lane `j 1`), it is `x i · w (col i)`. Both input blocks
    sit at block row `t` like the output's, so entry `j` of the first is `x i` and entry `(j 0, 0)` of the second is
    `w (col i)`. -/
theorem blk_entry (c : Dev nD) (t : Fin cfg2.N) (j : S10000x128.Idx) :
    k2_pay1 (iblk2 V c 0 t) (iblk2 V c 1 t) j
      = FloatOps.mulf ((V c main_v61 : S800000x128.Idx → Elt F .f32) (((cfg2.win 2).blk t).view.emb j))
          ((V c main_v44 : S800000x1.Idx → Elt F .f32) (col (((cfg2.win 2).blk t).view.emb j))) := by
  rw [pay_apply _ _ j (ValueIdx.ix2 (j 0) ⟨0, Nat.one_pos⟩) rfl rfl]
  obtain ⟨e0, e1, e2, e3, e4, e5⟩ := idx_facts t
  have hj0 : (j 0).val < 10000 := (j 0).isLt
  have hj1 : (j 1).val < 128 := (j 1).isLt
  have h0 : iblk2 V c 0 t j = (V c main_v61 : S800000x128.Idx → Elt F .f32) (((cfg2.win 2).blk t).view.emb j) := by
    show (V c main_v61 : S800000x128.Idx → Elt F .f32) (((cfg2.win 0).blk t).view.emb j) = _
    refine congrArg (V c main_v61 : S800000x128.Idx → Elt F .f32) ?_
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 128 + 1 * (j 1).val = win2_2.index t (1 : Fin 2) * 128 + 1 * (j 1).val; omega
  have h1 : iblk2 V c 1 t (ValueIdx.ix2 (j 0) ⟨0, Nat.one_pos⟩) = (V c main_v44 : S800000x1.Idx → Elt F .f32) (col (((cfg2.win 2).blk t).view.emb j)) := by
    show (V c main_v44 : S800000x1.Idx → Elt F .f32) (((cfg2.win 1).blk t).view.emb (ValueIdx.ix2 (j 0) ⟨0, Nat.one_pos⟩)) = _
    refine congrArg (V c main_v44 : S800000x1.Idx → Elt F .f32) ?_
    funext a; apply Fin.ext
    match a with
    | ⟨0, _⟩ => show win2_1.index t (0 : Fin 2) * 10000 + 1 * (j 0).val = win2_2.index t (0 : Fin 2) * 10000 + 1 * (j 0).val; omega
    | ⟨1, _⟩ => show win2_1.index t (1 : Fin 2) * 1 + 1 * 0 = 0; omega
  rw [h0, h1]

/-- What point `t` writes back to the output array is block `t` of the product array `i ↦ x i · w (col i)`. -/
theorem flushed_eq (c : Dev nD) (t : Fin cfg2.N) :
    (dat2 V c).flushed 2 t = ((cfg2.win 2).blk t).view.read (Elt F)
      (fun i : S800000x128.Idx => FloatOps.mulf ((V c main_v61 : S800000x128.Idx → Elt F .f32) i) ((V c main_v44 : S800000x1.Idx → Elt F .f32) (col i))) := by
  show (cfg2.win 2).cut (grid2.coords t) ((dat2 V c).after 2 t) = _
  rw [after2_2]
  unfold out2_2
  rw [View.canon_unit_zero hz]
  simp only [View.ld_unit_zero (S := S10000x128) hz, View.ld_unit_zero (S := S10000x1) hz]
  funext j
  exact blk_entry V c t j

/-- An index of the output array lies in point `t`'s block iff on each axis its coordinate is within the block's
    range: from block index × block extent, for one block extent. -/
theorem mem_blk (t : Fin cfg2.N) (i : S800000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v62).slice (win2_2.rect t)).set ↔ _
  rw [View.set_slice_whole, Rect.mem_set_unit]
  exact Iff.rfl

/-- Every index of the output array is written back by some point: row `r` lies in the block of point `r / 10000`,
    which is below 80 since `r < 800000`; the lane axis is one block wide. -/
theorem covered (i : S800000x128.Idx) :
    ∃ t : Fin cfg2.N, (cfg2.win 2).flush t = true ∧ i ∈ ((cfg2.win 2).blk t).view.set := by
  have hi0 : (i 0).val < 800000 := (i 0).isLt
  have hi1 : (i 1).val < 128 := (i 1).isLt
  have hN : (i 0).val / 10000 < cfg2.N := by show _ < grid2.N; rw [N_2]; omega
  obtain ⟨e0, e1, e2, e3, e4, e5⟩ := idx_facts ⟨(i 0).val / 10000, hN⟩
  refine ⟨⟨(i 0).val / 10000, hN⟩, flush2_2 _, ?_⟩
  rw [mem_blk]
  intro a
  match a with
  | ⟨0, _⟩ =>
    show win2_2.index ⟨(i 0).val / 10000, hN⟩ (0 : Fin 2) * 10000 ≤ (i 0).val ∧ (i 0).val < win2_2.index ⟨(i 0).val / 10000, hN⟩ (0 : Fin 2) * 10000 + 10000
    rw [e4]; show (i 0).val / 10000 * 10000 ≤ (i 0).val ∧ (i 0).val < (i 0).val / 10000 * 10000 + 10000; omega
  | ⟨1, _⟩ =>
    show win2_2.index ⟨(i 0).val / 10000, hN⟩ (1 : Fin 2) * 128 ≤ (i 1).val ∧ (i 1).val < win2_2.index ⟨(i 0).val / 10000, hN⟩ (1 : Fin 2) * 128 + 128
    rw [e5]; omega

/-- After the launch, the output array is, entry by entry, the first input array's entry times the second input
    column's entry of the same row: each point writes back its block of that product array, and the blocks cover
    the array. -/
theorem arr2 (c : Dev nD) :
    (dat2 V c).arrAt 2 cfg2.N
      = (fun i : S800000x128.Idx => FloatOps.mulf ((V c main_v61 : S800000x128.Idx → Elt F .f32) i) ((V c main_v44 : S800000x1.Idx → Elt F .f32) (col i))) :=
  (dat2 V c).arrAt_eq_of_cover 2 _ (fun t _ => flushed_eq V c t) covered

end Cert.KernelIdeal.KReg2

end
-- ==== Proof.RefRead.lean ====
/-
  Three stages of the reference read as whole-array functions of earlier stages: the per-edge cosine similarity, and the
  two scaled message arrays (every gathered row times its edge's normalisation weight).
-/
import proofs.«408912_j5085241279118_3_alg».proof.Proof.Gen.ReferenceIdeal.Read
import proofs.«408912_j5085241279118_3_alg».proof.Proof.CosSim
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefRead

open Cert.ReferenceIdeal Cert.ReferenceIdeal.Gen Cert.ReferenceIdeal.Read
open Cert.Proof.CosSim
open Idealize.ShloMosaic

/-- The one column entry of row `i 0`. -/
def col (i : S800000x128.Idx) : S800000x1.Idx := ValueIdx.ix2 (i 0) ⟨0, Nat.one_pos⟩

/-- A one-column table whose entry (e, 0) is `f e`, recast as a vector, is `f`. -/
theorem cast_col {α : Type} (f : Fin 800000 → α) (h : S800000x1.ShapeCasts S800000) :
    shapeCast S800000 (fun i : S800000x1.Idx => f (i 0)) h = fun e : S800000.Idx => f (e 0) := by
  funext e
  refine (shapeCast_apply (fun i : S800000x1.Idx => f (i 0)) h e (ValueIdx.ix2 (n0 := 800000) (n1 := 1) (e 0) ⟨0, Nat.one_pos⟩) ?_).trans rfl
  rw [Shape.rowMajor_val_two, Shape.rowMajor_val_one]
  show (e 0).val * 1 + 0 = (e 0).val
  omega

/-- The index of column k of edge e's row, as the reference's row sums spell it, is (e, k). -/
theorem row_index (e : S800000.Idx) (k : Fin 128) :
    idx_main_v19 e k = ValueIdx.ix2 (n0 := 800000) (n1 := 128) (e 0) k :=
  funext fun a => by match a with | ⟨0, _⟩ => rfl | ⟨1, _⟩ => rfl

/-- The reference's first row sum is the dot product of the two gathered rows. -/
theorem dot_stage (x0 : FVec Ideal S50000x128 .f32) (x1 : IVec S2x800000 32) (e : S800000.Idx) :
    val_main_v19 (F := Ideal) x0 x1 e
      = rowDot (val_main_v10 (F := Ideal) x0 x1 : S800000x128.Idx → EReal) (val_main_v17 (F := Ideal) x0 x1 : S800000x128.Idx → EReal) (e 0) := by
  rw [val_main_v19_apply, val_main_cst_apply, Ideal.ofBits_def, Ideal.ofBits_zero_f32, zero_add]
  unfold rowDot
  refine Finset.sum_congr rfl fun k _ => ?_
  rw [val_main_v18_apply, Ideal.mulf_def, row_index]

/-- Its second row sum is the first gathered row's sum of squares. -/
theorem sq_stage_src (x0 : FVec Ideal S50000x128 .f32) (x1 : IVec S2x800000 32) (e : S800000.Idx) :
    val_main_v21 (F := Ideal) x0 x1 e
      = rowDot (val_main_v10 (F := Ideal) x0 x1 : S800000x128.Idx → EReal) (val_main_v10 (F := Ideal) x0 x1 : S800000x128.Idx → EReal) (e 0) := by
  rw [val_main_v21_apply, val_main_cst_3_apply, Ideal.ofBits_def, Ideal.ofBits_zero_f32, zero_add]
  unfold rowDot
  refine Finset.sum_congr rfl fun k _ => ?_
  rw [val_main_v20_apply, Ideal.mulf_def]
  exact congrArg (fun j => val_main_v10 (F := Ideal) x0 x1 j * val_main_v10 (F := Ideal) x0 x1 j) (row_index e k)

/-- Its third row sum is the second gathered row's sum of squares. -/
theorem sq_stage_dst (x0 : FVec Ideal S50000x128 .f32) (x1 : IVec S2x800000 32) (e : S800000.Idx) :
    val_main_v26 (F := Ideal) x0 x1 e
      = rowDot (val_main_v17 (F := Ideal) x0 x1 : S800000x128.Idx → EReal) (val_main_v17 (F := Ideal) x0 x1 : S800000x128.Idx → EReal) (e 0) := by
  rw [val_main_v26_apply, val_main_cst_5_apply, Ideal.ofBits_def, Ideal.ofBits_zero_f32, zero_add]
  unfold rowDot
  refine Finset.sum_congr rfl fun k _ => ?_
  rw [val_main_v25_apply, Ideal.mulf_def]
  exact congrArg (fun j => val_main_v17 (F := Ideal) x0 x1 j * val_main_v17 (F := Ideal) x0 x1 j) (row_index e k)

/-- The similarity stage is the cosine similarity of the two gathered feature arrays, edge by edge. -/
theorem v31_eq (x0 : FVec Ideal S50000x128 .f32) (x1 : IVec S2x800000 32) :
    (val_main_v31 (F := Ideal) x0 x1 : S800000.Idx → EReal) = fun e : S800000.Idx => cosSim (val_main_v10 (F := Ideal) x0 x1 : S800000x128.Idx → EReal) (val_main_v17 (F := Ideal) x0 x1 : S800000x128.Idx → EReal) (e 0) := by
  funext e
  rw [val_main_v31_apply, Ideal.hostDivf_def, val_main_v30_apply, Ideal.mulf_def, val_main_v24_apply, val_main_v29_apply,
    Ideal.maximumf_def, Ideal.maximumf_def, val_main_v22_apply, val_main_v27_apply, Ideal.hostUnary_sqrt_def,
    Ideal.hostUnary_sqrt_def, val_main_v23_apply, val_main_v28_apply, val_main_cst_4_apply, val_main_cst_6_apply,
    Ideal.ofBits_def, dot_stage, sq_stage_src, sq_stage_dst]
  rfl

/-- The first layer's messages: each gathered row times its edge's weight. -/
theorem v90_eq (x0 : FVec Ideal S50000x128 .f32) (x1 : IVec S2x800000 32) (x2 : IVec S50000 32) (x3 : FVec Ideal S128x128 .f32) :
    (val_main_v90 (F := Ideal) x0 x1 x2 x3 : S800000x128.Idx → EReal) = fun i : S800000x128.Idx => (val_main_v87 (F := Ideal) x0 x1 x3 : S800000x128.Idx → EReal) i * (val_main_v88 (F := Ideal) x0 x1 x2 : S800000x1.Idx → EReal) (col i) := by
  funext i
  rw [val_main_v90_apply, Ideal.mulf_def, val_main_v89_apply]
  refine congrArg (fun j => val_main_v87 (F := Ideal) x0 x1 x3 i * val_main_v88 (F := Ideal) x0 x1 x2 j) ?_
  funext a
  match a with
  | ⟨0, _⟩ => rfl
  | ⟨1, _⟩ => rfl

/-- The reference's second computation of the edge weights is the first: the same operations on the same inputs. -/
theorem weight_again (x0 : FVec Ideal S50000x128 .f32) (x1 : IVec S2x800000 32) (x2 : IVec S50000 32) :
    val_main_v137 (F := Ideal) x0 x1 x2 = val_main_v88 (F := Ideal) x0 x1 x2 := rfl

/-- The second layer's messages: each gathered row times the SAME edge weight (the reference recomputes it from the
    same edge weights; the two computations are one term). -/
theorem v139_eq (x0 : FVec Ideal S50000x128 .f32) (x1 : IVec S2x800000 32) (x2 : IVec S50000 32) (x3 : FVec Ideal S128x128 .f32) (x4 : FVec Ideal S128 .f32) (x5 : FVec Ideal S128x128 .f32) :
    (val_main_v139 (F := Ideal) x0 x1 x2 x3 x4 x5 : S800000x128.Idx → EReal) = fun i : S800000x128.Idx => (val_main_v136 (F := Ideal) x0 x1 x2 x3 x4 x5 : S800000x128.Idx → EReal) i * (val_main_v88 (F := Ideal) x0 x1 x2 : S800000x1.Idx → EReal) (col i) := by
  funext i
  rw [val_main_v139_apply, Ideal.mulf_def, val_main_v138_apply, weight_again]
  refine congrArg (fun j => val_main_v136 (F := Ideal) x0 x1 x2 x3 x4 x5 i * val_main_v88 (F := Ideal) x0 x1 x2 j) ?_
  funext a
  match a with
  | ⟨0, _⟩ => rfl
  | ⟨1, _⟩ => rfl

end Cert.ReferenceIdeal.RefRead

end
-- ==== Proof.KAssemble.lean ====
/-
  The kernel's program read end to end at the ideal instance: segment by segment (host operations, launch, host
  operations, …) every buffer a later segment reads holds the reference's stage of the same arguments, provided every
  entry of the edge list is a node number; so the two buffers the program returns hold the reference's two results.
-/
import proofs.«408912_j5085241279118_3_alg».proof.Proof.Gen.KernelIdeal.Frame
import proofs.«408912_j5085241279118_3_alg».proof.Proof.Gen.ReferenceIdeal.Read
import proofs.«408912_j5085241279118_3_alg».proof.Proof.KTake
import proofs.«408912_j5085241279118_3_alg».proof.Proof.KStage0
import proofs.«408912_j5085241279118_3_alg».proof.Proof.KStage1
import proofs.«408912_j5085241279118_3_alg».proof.Proof.KStage2
import proofs.«408912_j5085241279118_3_alg».proof.Proof.KStage3
import proofs.«408912_j5085241279118_3_alg».proof.Proof.KRegion0
import proofs.«408912_j5085241279118_3_alg».proof.Proof.KRegion1
import proofs.«408912_j5085241279118_3_alg».proof.Proof.KRegion2
import proofs.«408912_j5085241279118_3_alg».proof.Proof.RefRead
import Idealize.ShloMosaic.PureOps.Ideal

set_option maxRecDepth 16384

noncomputable section

namespace Cert.KernelIdeal.KAsm

open Cert.KernelIdeal Cert.KernelIdeal.Gen Cert.KernelIdeal.KTake
open Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg)
variable (c : Dev nD) (hs : Small ((m ((c : Thread nD τ).loc main_arg1)) : IVec S2x800000 32))
include hs

/-! ## Before the first launch: the launch memory's arguments, the two index rows, the gathered features -/

theorem a_v1 : W6 m ρ c (Proc.devRef .tc main_v1) = val_main_v1 (F := Ideal) (m ((c : Thread nD τ).loc main_arg1)) := KSt0.v1 (W0 m ρ c) _ rfl
theorem a_v3 : W6 m ρ c (Proc.devRef .tc main_v3) = val_main_v3 (F := Ideal) (m ((c : Thread nD τ).loc main_arg1)) := KSt0.v3 (W0 m ρ c) _ rfl
theorem a_v7 : W6 m ρ c (Proc.devRef .tc main_v7) = val_main_v47 (F := Ideal) (m ((c : Thread nD τ).loc main_arg1)) (m ((c : Thread nD τ).loc main_arg2)) := KSt0.v7 (W0 m ρ c) _ _ rfl rfl hs
theorem a_v8 : W6 m ρ c (Proc.devRef .tc main_v8) = val_main_v10 (F := Ideal) (m ((c : Thread nD τ).loc main_arg0)) (m ((c : Thread nD τ).loc main_arg1)) := KSt0.v8 (W0 m ρ c) _ _ rfl rfl hs
theorem a_v9 : W6 m ρ c (Proc.devRef .tc main_v9) = val_main_v17 (F := Ideal) (m ((c : Thread nD τ).loc main_arg0)) (m ((c : Thread nD τ).loc main_arg1)) := KSt0.v9 (W0 m ρ c) _ _ rfl rfl hs
theorem a_arg0 : W6 m ρ c (Proc.devRef .tc main_arg0) = (m ((c : Thread nD τ).loc main_arg0)) := KSt0.keep_arg0 (W0 m ρ c)
theorem a_arg3 : W6 m ρ c (Proc.devRef .tc main_arg3) = (m ((c : Thread nD τ).loc main_arg3)) := KSt0.keep_arg3 (W0 m ρ c)
theorem a_arg4 : W6 m ρ c (Proc.devRef .tc main_arg4) = (m ((c : Thread nD τ).loc main_arg4)) := KSt0.keep_arg4 (W0 m ρ c)
theorem a_arg5 : W6 m ρ c (Proc.devRef .tc main_arg5) = (m ((c : Thread nD τ).loc main_arg5)) := KSt0.keep_arg5 (W0 m ρ c)
theorem a_arg6 : W6 m ρ c (Proc.devRef .tc main_arg6) = (m ((c : Thread nD τ).loc main_arg6)) := KSt0.keep_arg6 (W0 m ρ c)
theorem a_arg7 : W6 m ρ c (Proc.devRef .tc main_arg7) = (m ((c : Thread nD τ).loc main_arg7)) := KSt0.keep_arg7 (W0 m ρ c)
theorem a_arg8 : W6 m ρ c (Proc.devRef .tc main_arg8) = (m ((c : Thread nD τ).loc main_arg8)) := KSt0.keep_arg8 (W0 m ρ c)

/-! ## The first launch: the similarity column; every other buffer as it was -/

theorem b_v10 : shapeCast S800000 (W7 m ρ c (Proc.devRef .tc main_v10)) shapeCasts_S800000x1_S800000 = val_main_v31 (F := Ideal) (m ((c : Thread nD τ).loc main_arg0)) (m ((c : Thread nD τ).loc main_arg1)) := by
  have e : W7 m ρ c (Proc.devRef .tc main_v10)
      = (fun i : S800000x1.Idx => Cert.Proof.CosSim.cosSim (val_main_v10 (F := Ideal) (m ((c : Thread nD τ).loc main_arg0)) (m ((c : Thread nD τ).loc main_arg1)) : S800000x128.Idx → EReal) (val_main_v17 (F := Ideal) (m ((c : Thread nD τ).loc main_arg0)) (m ((c : Thread nD τ).loc main_arg1)) : S800000x128.Idx → EReal) (i 0)) :=
    ((W7_arr m ρ c 2).trans (KReg0.arr0 (V6 m ρ) c)).trans
      (congrArg₂ (fun (a b : S800000x128.Idx → EReal) => fun i : S800000x1.Idx => Cert.Proof.CosSim.cosSim a b (i 0)) (a_v8 m ρ c hs) (a_v9 m ρ c hs))
  rw [e]
  exact (Cert.ReferenceIdeal.RefRead.cast_col _ _).trans (Cert.ReferenceIdeal.RefRead.v31_eq _ _).symm

theorem b_v7 : W7 m ρ c (Proc.devRef .tc main_v7) = val_main_v47 (F := Ideal) (m ((c : Thread nD τ).loc main_arg1)) (m ((c : Thread nD τ).loc main_arg2)) := (W7_of_ne m ρ c main_v7 (by decide)).trans (a_v7 m ρ c hs)
theorem b_v1 : W7 m ρ c (Proc.devRef .tc main_v1) = val_main_v1 (F := Ideal) (m ((c : Thread nD τ).loc main_arg1)) := (W7_of_ne m ρ c main_v1 (by decide)).trans (a_v1 m ρ c hs)
theorem b_v3 : W7 m ρ c (Proc.devRef .tc main_v3) = val_main_v3 (F := Ideal) (m ((c : Thread nD τ).loc main_arg1)) := (W7_of_ne m ρ c main_v3 (by decide)).trans (a_v3 m ρ c hs)
theorem b_arg0 : W7 m ρ c (Proc.devRef .tc main_arg0) = (m ((c : Thread nD τ).loc main_arg0)) := (W7_of_ne m ρ c main_arg0 (by decide)).trans (a_arg0 m ρ c hs)
theorem b_arg3 : W7 m ρ c (Proc.devRef .tc main_arg3) = (m ((c : Thread nD τ).loc main_arg3)) := (W7_of_ne m ρ c main_arg3 (by decide)).trans (a_arg3 m ρ c hs)
theorem b_arg4 : W7 m ρ c (Proc.devRef .tc main_arg4) = (m ((c : Thread nD τ).loc main_arg4)) := (W7_of_ne m ρ c main_arg4 (by decide)).trans (a_arg4 m ρ c hs)
theorem b_arg5 : W7 m ρ c (Proc.devRef .tc main_arg5) = (m ((c : Thread nD τ).loc main_arg5)) := (W7_of_ne m ρ c main_arg5 (by decide)).trans (a_arg5 m ρ c hs)
theorem b_arg6 : W7 m ρ c (Proc.devRef .tc main_arg6) = (m ((c : Thread nD τ).loc main_arg6)) := (W7_of_ne m ρ c main_arg6 (by decide)).trans (a_arg6 m ρ c hs)
theorem b_arg7 : W7 m ρ c (Proc.devRef .tc main_arg7) = (m ((c : Thread nD τ).loc main_arg7)) := (W7_of_ne m ρ c main_arg7 (by decide)).trans (a_arg7 m ρ c hs)
theorem b_arg8 : W7 m ρ c (Proc.devRef .tc main_arg8) = (m ((c : Thread nD τ).loc main_arg8)) := (W7_of_ne m ρ c main_arg8 (by decide)).trans (a_arg8 m ρ c hs)

/-! ## Between the first and the second launch -/

theorem c_v44 : W11 m ρ c (Proc.devRef .tc main_v44) = val_main_v88 (F := Ideal) (m ((c : Thread nD τ).loc main_arg0)) (m ((c : Thread nD τ).loc main_arg1)) (m ((c : Thread nD τ).loc main_arg2)) :=
  KSt1.v44 (W7 m ρ c) _ _ _ (b_v10 m ρ c hs) (b_v7 m ρ c hs) (b_v1 m ρ c hs) (b_v3 m ρ c hs)
theorem c_v46 : W11 m ρ c (Proc.devRef .tc main_v46) = val_main_v95 (F := Ideal) (m ((c : Thread nD τ).loc main_arg0)) (m ((c : Thread nD τ).loc main_arg1)) (m ((c : Thread nD τ).loc main_arg2)) :=
  KSt1.v46 (W7 m ρ c) _ _ _ (b_v10 m ρ c hs) (b_v7 m ρ c hs) (b_v1 m ρ c hs) (b_v3 m ρ c hs)
theorem c_v47 : W11 m ρ c (Proc.devRef .tc main_v47) = val_main_v54 (F := Ideal) (m ((c : Thread nD τ).loc main_arg0)) (m ((c : Thread nD τ).loc main_arg3)) := KSt1.v47 (W7 m ρ c) _ _ (b_arg0 m ρ c hs) (b_arg3 m ρ c hs)
theorem c_v48 : W11 m ρ c (Proc.devRef .tc main_v48) = val_main_v87 (F := Ideal) (m ((c : Thread nD τ).loc main_arg0)) (m ((c : Thread nD τ).loc main_arg1)) (m ((c : Thread nD τ).loc main_arg3)) :=
  KSt1.v48 (W7 m ρ c) _ _ _ (b_arg0 m ρ c hs) (b_arg3 m ρ c hs) (b_v1 m ρ c hs) hs
theorem c_v1 : W11 m ρ c (Proc.devRef .tc main_v1) = val_main_v1 (F := Ideal) (m ((c : Thread nD τ).loc main_arg1)) := (KSt1.keep_v1 (W7 m ρ c)).trans (b_v1 m ρ c hs)
theorem c_v3 : W11 m ρ c (Proc.devRef .tc main_v3) = val_main_v3 (F := Ideal) (m ((c : Thread nD τ).loc main_arg1)) := (KSt1.keep_v3 (W7 m ρ c)).trans (b_v3 m ρ c hs)
theorem c_arg4 : W11 m ρ c (Proc.devRef .tc main_arg4) = (m ((c : Thread nD τ).loc main_arg4)) := (KSt1.keep_arg4 (W7 m ρ c)).trans (b_arg4 m ρ c hs)
theorem c_arg5 : W11 m ρ c (Proc.devRef .tc main_arg5) = (m ((c : Thread nD τ).loc main_arg5)) := (KSt1.keep_arg5 (W7 m ρ c)).trans (b_arg5 m ρ c hs)
theorem c_arg6 : W11 m ρ c (Proc.devRef .tc main_arg6) = (m ((c : Thread nD τ).loc main_arg6)) := (KSt1.keep_arg6 (W7 m ρ c)).trans (b_arg6 m ρ c hs)
theorem c_arg7 : W11 m ρ c (Proc.devRef .tc main_arg7) = (m ((c : Thread nD τ).loc main_arg7)) := (KSt1.keep_arg7 (W7 m ρ c)).trans (b_arg7 m ρ c hs)
theorem c_arg8 : W11 m ρ c (Proc.devRef .tc main_arg8) = (m ((c : Thread nD τ).loc main_arg8)) := (KSt1.keep_arg8 (W7 m ρ c)).trans (b_arg8 m ρ c hs)

/-! ## The second launch: the first layer's messages -/

theorem d_v49 : W12 m ρ c (Proc.devRef .tc main_v49) = val_main_v90 (F := Ideal) (m ((c : Thread nD τ).loc main_arg0)) (m ((c : Thread nD τ).loc main_arg1)) (m ((c : Thread nD τ).loc main_arg2)) (m ((c : Thread nD τ).loc main_arg3)) := by
  have e : W12 m ρ c (Proc.devRef .tc main_v49)
      = (fun i : S800000x128.Idx => (val_main_v87 (F := Ideal) (m ((c : Thread nD τ).loc main_arg0)) (m ((c : Thread nD τ).loc main_arg1)) (m ((c : Thread nD τ).loc main_arg3)) : S800000x128.Idx → EReal) i * (val_main_v88 (F := Ideal) (m ((c : Thread nD τ).loc main_arg0)) (m ((c : Thread nD τ).loc main_arg1)) (m ((c : Thread nD τ).loc main_arg2)) : S800000x1.Idx → EReal) (KReg1.col i)) :=
    ((W12_arr m ρ c 2).trans (KReg1.arr1 (V11 m ρ) c)).trans
      (congrArg₂ (fun (a : S800000x128.Idx → EReal) (b : S800000x1.Idx → EReal) => fun i : S800000x128.Idx => a i * b (KReg1.col i)) (c_v48 m ρ c hs) (c_v44 m ρ c hs))
  exact e.trans (Cert.ReferenceIdeal.RefRead.v90_eq _ _ _ _).symm

theorem d_v3 : W12 m ρ c (Proc.devRef .tc main_v3) = val_main_v3 (F := Ideal) (m ((c : Thread nD τ).loc main_arg1)) := (W12_of_ne m ρ c main_v3 (by decide)).trans (c_v3 m ρ c hs)
theorem d_v1 : W12 m ρ c (Proc.devRef .tc main_v1) = val_main_v1 (F := Ideal) (m ((c : Thread nD τ).loc main_arg1)) := (W12_of_ne m ρ c main_v1 (by decide)).trans (c_v1 m ρ c hs)
theorem d_v44 : W12 m ρ c (Proc.devRef .tc main_v44) = val_main_v88 (F := Ideal) (m ((c : Thread nD τ).loc main_arg0)) (m ((c : Thread nD τ).loc main_arg1)) (m ((c : Thread nD τ).loc main_arg2)) :=
  (((W12_arr m ρ c 1).trans ((dat1 (V11 m ρ) c).arrAt_in 1 (by rfl) cfg1.N)).trans (A_eq1 (V11 m ρ) c 1)).trans (c_v44 m ρ c hs)
theorem d_v46 : W12 m ρ c (Proc.devRef .tc main_v46) = val_main_v95 (F := Ideal) (m ((c : Thread nD τ).loc main_arg0)) (m ((c : Thread nD τ).loc main_arg1)) (m ((c : Thread nD τ).loc main_arg2)) := (W12_of_ne m ρ c main_v46 (by decide)).trans (c_v46 m ρ c hs)
theorem d_v47 : W12 m ρ c (Proc.devRef .tc main_v47) = val_main_v54 (F := Ideal) (m ((c : Thread nD τ).loc main_arg0)) (m ((c : Thread nD τ).loc main_arg3)) := (W12_of_ne m ρ c main_v47 (by decide)).trans (c_v47 m ρ c hs)
theorem d_arg4 : W12 m ρ c (Proc.devRef .tc main_arg4) = (m ((c : Thread nD τ).loc main_arg4)) := (W12_of_ne m ρ c main_arg4 (by decide)).trans (c_arg4 m ρ c hs)
theorem d_arg5 : W12 m ρ c (Proc.devRef .tc main_arg5) = (m ((c : Thread nD τ).loc main_arg5)) := (W12_of_ne m ρ c main_arg5 (by decide)).trans (c_arg5 m ρ c hs)
theorem d_arg6 : W12 m ρ c (Proc.devRef .tc main_arg6) = (m ((c : Thread nD τ).loc main_arg6)) := (W12_of_ne m ρ c main_arg6 (by decide)).trans (c_arg6 m ρ c hs)
theorem d_arg7 : W12 m ρ c (Proc.devRef .tc main_arg7) = (m ((c : Thread nD τ).loc main_arg7)) := (W12_of_ne m ρ c main_arg7 (by decide)).trans (c_arg7 m ρ c hs)
theorem d_arg8 : W12 m ρ c (Proc.devRef .tc main_arg8) = (m ((c : Thread nD τ).loc main_arg8)) := (W12_of_ne m ρ c main_arg8 (by decide)).trans (c_arg8 m ρ c hs)

/-! ## Between the second and the third launch -/

theorem e_v60 : W16 m ρ c (Proc.devRef .tc main_v60) = val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  KSt2.v60 (W12 m ρ c) _ _ _ _ _ _ (d_v49 m ρ c hs) (d_v3 m ρ c hs) (d_v46 m ρ c hs) (d_v47 m ρ c hs) (d_arg4 m ρ c hs) (d_arg5 m ρ c hs)
theorem e_v61 : W16 m ρ c (Proc.devRef .tc main_v61) = val_main_v136 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  KSt2.v61 (W12 m ρ c) _ _ _ _ _ _ (d_v49 m ρ c hs) (d_v3 m ρ c hs) (d_v46 m ρ c hs) (d_v47 m ρ c hs) (d_arg4 m ρ c hs) (d_arg5 m ρ c hs) (d_v1 m ρ c hs) hs
theorem e_v3 : W16 m ρ c (Proc.devRef .tc main_v3) = val_main_v3 (F := Ideal) (m ((c : Thread nD τ).loc main_arg1)) := (KSt2.keep_v3 (W12 m ρ c)).trans (d_v3 m ρ c hs)
theorem e_v44 : W16 m ρ c (Proc.devRef .tc main_v44) = val_main_v88 (F := Ideal) (m ((c : Thread nD τ).loc main_arg0)) (m ((c : Thread nD τ).loc main_arg1)) (m ((c : Thread nD τ).loc main_arg2)) := (KSt2.keep_v44 (W12 m ρ c)).trans (d_v44 m ρ c hs)
theorem e_v46 : W16 m ρ c (Proc.devRef .tc main_v46) = val_main_v95 (F := Ideal) (m ((c : Thread nD τ).loc main_arg0)) (m ((c : Thread nD τ).loc main_arg1)) (m ((c : Thread nD τ).loc main_arg2)) := (KSt2.keep_v46 (W12 m ρ c)).trans (d_v46 m ρ c hs)
theorem e_arg6 : W16 m ρ c (Proc.devRef .tc main_arg6) = (m ((c : Thread nD τ).loc main_arg6)) := (KSt2.keep_arg6 (W12 m ρ c)).trans (d_arg6 m ρ c hs)
theorem e_arg7 : W16 m ρ c (Proc.devRef .tc main_arg7) = (m ((c : Thread nD τ).loc main_arg7)) := (KSt2.keep_arg7 (W12 m ρ c)).trans (d_arg7 m ρ c hs)
theorem e_arg8 : W16 m ρ c (Proc.devRef .tc main_arg8) = (m ((c : Thread nD τ).loc main_arg8)) := (KSt2.keep_arg8 (W12 m ρ c)).trans (d_arg8 m ρ c hs)

/-! ## The third launch: the second layer's messages -/

theorem f_v62 : W17 m ρ c (Proc.devRef .tc main_v62) = val_main_v139 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have e : W17 m ρ c (Proc.devRef .tc main_v62)
      = (fun i : S800000x128.Idx => (val_main_v136 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) : S800000x128.Idx → EReal) i * (val_main_v88 (F := Ideal) (m ((c : Thread nD τ).loc main_arg0)) (m ((c : Thread nD τ).loc main_arg1)) (m ((c : Thread nD τ).loc main_arg2)) : S800000x1.Idx → EReal) (KReg2.col i)) :=
    ((W17_arr m ρ c 2).trans (KReg2.arr2 (V16 m ρ) c)).trans
      (congrArg₂ (fun (a : S800000x128.Idx → EReal) (b : S800000x1.Idx → EReal) => fun i : S800000x128.Idx => a i * b (KReg2.col i)) (e_v61 m ρ c hs) (e_v44 m ρ c hs))
  exact e.trans (Cert.ReferenceIdeal.RefRead.v139_eq _ _ _ _ _ _).symm

theorem f_v3 : W17 m ρ c (Proc.devRef .tc main_v3) = val_main_v3 (F := Ideal) (m ((c : Thread nD τ).loc main_arg1)) := (W17_of_ne m ρ c main_v3 (by decide)).trans (e_v3 m ρ c hs)
theorem f_v60 : W17 m ρ c (Proc.devRef .tc main_v60) = val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := (W17_of_ne m ρ c main_v60 (by decide)).trans (e_v60 m ρ c hs)
theorem f_v46 : W17 m ρ c (Proc.devRef .tc main_v46) = val_main_v95 (F := Ideal) (m ((c : Thread nD τ).loc main_arg0)) (m ((c : Thread nD τ).loc main_arg1)) (m ((c : Thread nD τ).loc main_arg2)) := (W17_of_ne m ρ c main_v46 (by decide)).trans (e_v46 m ρ c hs)
theorem f_arg6 : W17 m ρ c (Proc.devRef .tc main_arg6) = (m ((c : Thread nD τ).loc main_arg6)) := (W17_of_ne m ρ c main_arg6 (by decide)).trans (e_arg6 m ρ c hs)
theorem f_arg7 : W17 m ρ c (Proc.devRef .tc main_arg7) = (m ((c : Thread nD τ).loc main_arg7)) := (W17_of_ne m ρ c main_arg7 (by decide)).trans (e_arg7 m ρ c hs)
theorem f_arg8 : W17 m ρ c (Proc.devRef .tc main_arg8) = (m ((c : Thread nD τ).loc main_arg8)) := (W17_of_ne m ρ c main_arg8 (by decide)).trans (e_arg8 m ρ c hs)

/-! ## After the third launch: the two results -/

/-- The second hidden layer the program returns is the reference's. -/
theorem result_h : W20 m ρ c (Proc.devRef .tc main_v72) = val_main_v151 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  KSt3.v72 (W17 m ρ c) _ _ _ _ _ _ _ (f_v3 m ρ c hs) (f_v62 m ρ c hs) (f_v60 m ρ c hs) (f_v46 m ρ c hs) (f_arg6 m ρ c hs)

/-- The classifier output the program returns is the reference's. -/
theorem result_y : W20 m ρ c (Proc.devRef .tc main_v76) = val_main_v155 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  KSt3.v76 (W17 m ρ c) _ _ _ _ _ _ _ _ _ (f_v3 m ρ c hs) (f_v62 m ρ c hs) (f_v60 m ρ c hs) (f_v46 m ρ c hs) (f_arg6 m ρ c hs) (f_arg7 m ρ c hs) (f_arg8 m ρ c hs)

end Cert.KernelIdeal.KAsm

end
-- ==== Proof.lean ====
/-
  A two-layer graph convolution over edge weights made from the cosine similarity of the end points' features,
  computed two ways: by a program that gathers rows with filled takes on the host, runs the per-edge similarity and
  the per-edge message scaling as three grid launches over 80 blocks of 10000 edges, and scatter-adds on the host;
  and by a reference that does all of it with host operations. On the extended reals the two compute the same
  function of the arguments, stage by stage, wherever every entry of the edge list is a node number (a filled take
  then never fills): the similarity launch leaves dot / (max(‖·‖, ε) · max(‖·‖, ε)) for every edge, the scaling
  launches leave row × weight, and every host stretch of the one program is the same chain of operations as the
  corresponding stretch of the other. The three frames are the generated runs; the idealization rewrote nothing.
-/
import proofs.«408912_j5085241279118_3_alg».proof.Defs
import proofs.«408912_j5085241279118_3_alg».proof.Proof.Gen.Kernel
import proofs.«408912_j5085241279118_3_alg».proof.Proof.Gen.Kernel.Skeleton
import proofs.«408912_j5085241279118_3_alg».proof.Proof.Gen.Kernel.Launch
import proofs.«408912_j5085241279118_3_alg».proof.Proof.Gen.Kernel.Points
import proofs.«408912_j5085241279118_3_alg».proof.Proof.Gen.Kernel.Frame
import proofs.«408912_j5085241279118_3_alg».proof.Proof.Gen.KernelIdeal
import proofs.«408912_j5085241279118_3_alg».proof.Proof.Gen.KernelIdeal.Skeleton
import proofs.«408912_j5085241279118_3_alg».proof.Proof.Gen.KernelIdeal.Launch
import proofs.«408912_j5085241279118_3_alg».proof.Proof.Gen.KernelIdeal.Points
import proofs.«408912_j5085241279118_3_alg».proof.Proof.Gen.KernelIdeal.Frame
import proofs.«408912_j5085241279118_3_alg».proof.Proof.Gen.ReferenceIdeal
import proofs.«408912_j5085241279118_3_alg».proof.Proof.Gen.ReferenceIdeal.Run
import proofs.«408912_j5085241279118_3_alg».proof.Proof.Gen.ReferenceIdeal.Read
import proofs.«408912_j5085241279118_3_alg».proof.Proof.Gen.Pre_finite_inputs
import proofs.«408912_j5085241279118_3_alg».proof.Proof.KRun
import proofs.«408912_j5085241279118_3_alg».proof.Proof.IdxPre
import proofs.«408912_j5085241279118_3_alg».proof.Proof.KAssemble
import Idealize.ShloMosaic.Adequacy
import Idealize.ShloMosaic.Init

set_option maxRecDepth 16384

noncomputable section

namespace Cert.Proof

open Idealize.ShloMosaic Idealize.ShloMosaic.TcCoe Idealize.SL.Sem

/-- The reference runs and keeps its arguments: its generated run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the reference's two result stages of those
    arguments: the kernel's by the segment-by-segment reading of its run under the index range the precondition
    states, the reference's by its generated run. -/
theorem algebraic : Cert.algebraic_KernelIdeal_ReferenceIdeal := by
  intro m ρ m' ρ' hpre hagree
  refine ⟨fun c => Cert.ReferenceIdeal.Read.val_main_v155 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.ReferenceIdeal.Read.val_main_v151 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun r h c => ?_) (Cert.KernelIdeal.GenRun.run_results (F := Ideal) m ρ)
    have hs := Cert.Proof.IdxPre.edges_small m hpre c
    exact ⟨(h c).1.trans (Cert.KernelIdeal.KAsm.result_y m ρ c hs), (h c).2.1.trans (Cert.KernelIdeal.KAsm.result_h m ρ c hs), (h c).2.2⟩
  · refine (θ_run Cert.ReferenceIdeal.defs _ _).mono (fun r h c => ?_) (Cert.ReferenceIdeal.Value.run (F := Ideal) m' ρ')
    obtain ⟨e0, e1, e2, e3, e4, e5, e6, e7, e8⟩ := hagree c
    refine ⟨(h c).1.trans ?_, (h c).2.1.trans ?_, (h c).2.2⟩
    · rw [Cert.ReferenceIdeal.Read.val_main_v155_eq, e0, e1, e2, e3, e4, e5, e6, e7, e8]
    · rw [Cert.ReferenceIdeal.Read.val_main_v151_eq, e0, e1, e2, e3, e4, e5, e6]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ri, trivial, algebraic⟩

end Cert.Proof

end
